-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x1536 : Shape := ⟨3, ![64, 1024, 1536]⟩
abbrev S64 : Shape := ⟨1, ![64]⟩
abbrev S32x1536x1024 : Shape := ⟨3, ![32, 1536, 1024]⟩
abbrev S32x1024 : Shape := ⟨2, ![32, 1024]⟩
abbrev S32x1024x1024 : Shape := ⟨3, ![32, 1024, 1024]⟩
abbrev S_ : Shape := ⟨0, ![]⟩

class Facts : Prop where
  bcast_S_S64x1024x1536 : S_.BroadcastsInDim S64x1024x1536 (![] : Fin 0 → Fin S64x1024x1536.rank)
  reducesTo_S64x1024x1536_S_d0_1_2 : S64x1024x1536.ReducesTo [0, 1, 2] S_
  h_S_ : 0 < S_.numel
  bcast_S_S32x1536x1024 : S_.BroadcastsInDim S32x1536x1024 (![] : Fin 0 → Fin S32x1536x1024.rank)
  reducesTo_S32x1536x1024_S_d0_1_2 : S32x1536x1024.ReducesTo [0, 1, 2] S_
  bcast_S_S32x1024 : S_.BroadcastsInDim S32x1024 (![] : Fin 0 → Fin S32x1024.rank)
  reducesTo_S32x1024_S_d0_1 : S32x1024.ReducesTo [0, 1] S_
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg1 : IVec S64 32) (main_arg5 : FVec F S32x1024 .f32) (main_v13 : IVec S_ 1) (main_v16 : IVec S32x1024x1024 1) : IVec S_ 1 :=
  let main_c_5 : IVec S_ 1 := constantI S_ 1 1#1
  let main_v17 : IVec S_ 1 := (fun x v => Host.reduce IntOp.andi x v reducesTo_S32x1024x1024_S_d0_1_2 h_S_) main_v16 main_c_5
  let main_v18 : IVec S_ 1 := andi main_v13 main_v17
  let main_v19 : FVec F S32x1024 .f32 := Host.absf main_arg5
  let main_cst_6 : FVec F S_ .f32 := constant S_ .f32 0x7F800000#32
  let main_v20 : FVec F S32x1024 .f32 := broadcastInDim S32x1024 ![] bcast_S_S32x1024 main_cst_6
  let main_v21 : IVec S32x1024 1 := cmpf .olt main_v19 main_v20
  let main_c_7 : IVec S_ 1 := constantI S_ 1 1#1
  let main_v22 : IVec S_ 1 := (fun x v => Host.reduce IntOp.andi x v reducesTo_S32x1024_S_d0_1 h_S_) main_v21 main_c_7
  let main_v23 : IVec S_ 1 := andi main_v18 main_v22
  let main_c_8 : IVec S_ 32 := constantI S_ 32 0#32
  let main_v24 : IVec S64 32 := broadcastInDim S64 ![] bcast_S_S64 main_c_8
  let main_v25 : IVec S64 1 := cmpi .sge main_arg1 main_v24
  let main_c_9 : IVec S_ 32 := constantI S_ 32 32#32
  let main_v26 : IVec S64 32 := broadcastInDim S64 ![] bcast_S_S64 main_c_9
  let main_v27 : IVec S64 1 := cmpi .slt main_arg1 main_v26
  let main_v28 : IVec S64 1 := andi main_v25 main_v27
  let main_c_10 : IVec S_ 1 := constantI S_ 1 1#1
  let main_v29 : IVec S_ 1 := (fun x v => Host.reduce IntOp.andi x v reducesTo_S64_S_d0 h_S_) main_v28 main_c_10
  let main_v30 : IVec S_ 1 := andi main_v23 main_v29
  main_v30

def fn {F : FTy → Type} [FloatOps F] (main_arg0 : FVec F S64x1024x1536 .f32) (main_arg1 : IVec S64 32) (main_arg2 : FVec F S32x1536x1024 .f32) (main_arg3 : FVec F S32x1024 .f32) (main_arg4 : FVec F S32x1024x1024 .f32) (main_arg5 : FVec F S32x1024 .f32) : IVec S_ 1 :=
  let main_v0 : FVec F S64x1024x1536 .f32 := Host.absf main_arg0
  let main_cst : FVec F S_ .f32 := constant S_ .f32 0x7F800000#32
  let main_v1 : FVec F S64x1024x1536 .f32 := broadcastInDim S64x1024x1536 ![] bcast_S_S64x1024x1536 main_cst
  let main_v2 : IVec S64x1024x1536 1 := cmpf .olt main_v0 main_v1
  let main_c : IVec S_ 1 := constantI S_ 1 1#1
  let main_v3 : IVec S_ 1 := (fun x v => Host.reduce IntOp.andi x v reducesTo_S64x1024x1536_S_d0_1_2 h_S_) main_v2 main_c
  let main_v4 : FVec F S32x1536x1024 .f32 := Host.absf main_arg2
  let main_cst_0 : FVec F S_ .f32 := constant S_ .f32 0x7F800000#32
  let main_v5 : FVec F S32x1536x1024 .f32 := broadcastInDim S32x1536x1024 ![] bcast_S_S32x1536x1024 main_cst_0
  let main_v6 : IVec S32x1536x1024 1 := cmpf .olt main_v4 main_v5
  let main_c_1 : IVec S_ 1 := constantI S_ 1 1#1
  let main_v7 : IVec S_ 1 := (fun x v => Host.reduce IntOp.andi x v reducesTo_S32x1536x1024_S_d0_1_2 h_S_) main_v6 main_c_1
  let main_v8 : IVec S_ 1 := andi main_v3 main_v7
  let main_v9 : FVec F S32x1024 .f32 := Host.absf main_arg3
  let main_cst_2 : FVec F S_ .f32 := constant S_ .f32 0x7F800000#32
  let main_v10 : FVec F S32x1024 .f32 := broadcastInDim S32x1024 ![] bcast_S_S32x1024 main_cst_2
  let main_v11 : IVec S32x1024 1 := cmpf .olt main_v9 main_v10
  let main_c_3 : IVec S_ 1 := constantI S_ 1 1#1
  let main_v12 : IVec S_ 1 := (fun x v => Host.reduce IntOp.andi x v reducesTo_S32x1024_S_d0_1 h_S_) main_v11 main_c_3
  let main_v13 : IVec S_ 1 := andi main_v8 main_v12
  let main_v14 : FVec F S32x1024x1024 .f32 := Host.absf main_arg4
  let main_cst_4 : FVec F S_ .f32 := constant S_ .f32 0x7F800000#32
  let main_v15 : FVec F S32x1024x1024 .f32 := broadcastInDim S32x1024x1024 ![] bcast_S_S32x1024x1024 main_cst_4
  let main_v16 : IVec S32x1024x1024 1 := cmpf .olt main_v14 main_v15
  fn_part1 (F := F) main_arg1 main_arg5 main_v13 main_v16
-- ==== Kernel.lean ====
abbrev S64x1024x1536 : Shape := ⟨3, ![64, 1024, 1536]⟩
abbrev S64 : Shape := ⟨1, ![64]⟩
abbrev S32x1536x1024 : Shape := ⟨3, ![32, 1536, 1024]⟩
abbrev S32x1024 : Shape := ⟨2, ![32, 1024]⟩
abbrev S32x1024x1024 : Shape := ⟨3, ![32, 1024, 1024]⟩
abbrev S64x1024x1024 : Shape := ⟨3, ![64, 1024, 1024]⟩
abbrev S1x512x1536 : Shape := ⟨3, ![1, 512, 1536]⟩
abbrev S1x1536x1024 : Shape := ⟨3, ![1, 1536, 1024]⟩
abbrev S1 : Shape := ⟨1, ![1]⟩
abbrev S1x1024x1024 : Shape := ⟨3, ![1, 1024, 1024]⟩
abbrev S1x512x1024 : Shape := ⟨3, ![1, 512, 1024]⟩
abbrev S512x1536 : Shape := ⟨2, ![512, 1536]⟩
abbrev S1536x1024 : Shape := ⟨2, ![1536, 1024]⟩
abbrev S512x1024 : Shape := ⟨2, ![512, 1024]⟩
abbrev S1x1024 : Shape := ⟨2, ![1, 1024]⟩
abbrev S1024 : Shape := ⟨1, ![1024]⟩
abbrev S1024x1024 : Shape := ⟨2, ![1024, 1024]⟩

abbrev nBuf : Space → Nat
  | .hbm => 6
  | .vmem => 10
  | .smem => 1
  | _ => 0

abbrev bufTy : (tb : Table) → Fin (tcTables nBuf tb) → BufTy
  | .hbm, ⟨0, _⟩ => ⟨S64x1024x1536, .f32⟩
  | .hbm, ⟨1, _⟩ => ⟨S32x1536x1024, .f32⟩
  | .hbm, ⟨2, _⟩ => ⟨S32x1024, .f32⟩
  | .hbm, ⟨3, _⟩ => ⟨S32x1024x1024, .f32⟩
  | .hbm, ⟨4, _⟩ => ⟨S32x1024, .f32⟩
  | .hbm, ⟨5, _⟩ => ⟨S64x1024x1024, .f32⟩
  | .local _ .vmem, ⟨0, _⟩ => ⟨S1x512x1536, .f32⟩
  | .local _ .vmem, ⟨1, _⟩ => ⟨S1x512x1536, .f32⟩
  | .local _ .vmem, ⟨2, _⟩ => ⟨S1x1536x1024, .f32⟩
  | .local _ .vmem, ⟨3, _⟩ => ⟨S1x1536x1024, .f32⟩
  | .local _ .vmem, ⟨4, _⟩ => ⟨S32x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S32x1024, .f32⟩
  | .local _ .vmem, ⟨8, _⟩ => ⟨S1x512x1024, .f32⟩
  | .local _ .vmem, ⟨9, _⟩ => ⟨S1x512x1024, .f32⟩
  | .local _ .smem, ⟨0, _⟩ => ⟨S64, .i32⟩
  | _, _ => ⟨S64x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 2], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 2 → Nat :=
  let v9 : Index := Scalar.indexCast v1
  let c0_5 : Index := 0#32
  ![v9.toNat, 0]

def k0_chk1 (v1 : BitVec 32) : Prop :=
  (∀ a, (k0_off2 v1) a + S1x1024.size a ≤ S32x1024.size a)
instance k0_chk1.dec : ∀ (v1 : BitVec 32), Decidable (k0_chk1 v1) := fun v1 => decidable_of_iff' _ (Iff.of_eq (k0_chk1.eq_1 v1))
theorem k0_off2_inb : ∀ (v1 : BitVec 32) (k0_hw1 : k0_chk1 v1), ∀ a, (k0_off2 v1) a + S1x1024.size a ≤ S32x1024.size a := fun v1 k0_hw1 => k0_hw1

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1536x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  numel1_S1 : S1.numel = 1
  inb_S1x512x1536_S1x512x1536_0_0_0 : ∀ a, (![0, 0, 0] : Fin 3 → Nat) a + S1x512x1536.size a ≤ S1x512x1536.size a
  h_S1x512x1536 : 0 < S1x512x1536.numel
  shapeCasts_S1x512x1536_S512x1536 : S1x512x1536.ShapeCasts S512x1536
  bitsLt_bf16_f32 : FTy.bits .bf16 < FTy.bits .f32
  inb_S1x1536x1024_S1x1536x1024_0_0_0 : ∀ a, (![0, 0, 0] : Fin 3 → Nat) a + S1x1536x1024.size a ≤ S1x1536x1024.size a
  h_S1x1536x1024 : 0 < S1x1536x1024.numel
  shapeCasts_S1x1536x1024_S1536x1024 : S1x1536x1024.ShapeCasts S1536x1024
  h_S1x1024 : 0 < S1x1024.numel
  shapeCasts_S1x1024_S1024 : S1x1024.ShapeCasts S1024
  shapeCasts_S1024_S1x1024 : S1024.ShapeCasts S1x1024
  broadcasts_S1x1024_S512x1024 : S1x1024.Broadcasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S512x1536_S1536x1024_S512x1024_1_0_0_1_n_n_wf : DotDims.WF S512x1536 S1536x1024 S512x1024 [1] [0] [0] [1] [] []
  dot_S512x1024_S1024x1024_S512x1024_1_0_0_1_n_n_wf : DotDims.WF S512x1024 S1024x1024 S512x1024 [1] [0] [0] [1] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1536.size a ≤ S64x1024x1536.size a
  hwx0_0 : ∀ i : grid0.Coords, EltTy.bits .f32 = 32 ∨ (Rect.block (s := S64x1024x1536) S1x512x1536.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1024.size a ≤ S32x1024.size a
  hwx0_2 : ∀ i : grid0.Coords, EltTy.bits .f32 = 32 ∨ (Rect.block (s := S32x1024) S32x1024.size (cc0_transform_2 i) (hinb0_2 i)).WholeWords (EltTy.packing .f32)
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1024.size a ≤ S32x1024.size a
  hwx0_4 : ∀ i : grid0.Coords, EltTy.bits .f32 = 32 ∨ (Rect.block (s := S32x1024) S32x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S64x1024x1024.size a
  hwx0_5 : ∀ i : grid0.Coords, EltTy.bits .f32 = 32 ∨ (Rect.block (s := S64x1024x1024) S1x512x1024.size (cc0_transform_5 i) (hinb0_5 i)).WholeWords (EltTy.packing .f32)

variable [Facts₀]

def dot_S512x1536_S1536x1024_S512x1024_1_0_0_1_n_n : DotDims S512x1536 S1536x1024 S512x1024 where
  lhsContracting := [1]
  rhsContracting := [0]
  lhsNonContracting := [0]
  rhsNonContracting := [1]
  lhsBatch := []
  rhsBatch := []
  wf := dot_S512x1536_S1536x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev spec0_0 : Pipeline.WinSpec sig grid0.rank :=
  Pipeline.WinSpec.ofSpec (Memref.whole main_arg0) S1x512x1536.size reads0_0 false false 2 stage0_0 sem0_0 nbuf0_0 hstage0_0

abbrev spec0_1 : Pipeline.WinSpec sig grid0.rank :=
  Pipeline.WinSpec.ofSpec (Memref.whole main_arg2) S1x1536x1024.size reads0_1 false false 2 stage0_1 sem0_1 nbuf0_1 hstage0_1

abbrev spec0_2 : Pipeline.WinSpec sig grid0.rank :=
  Pipeline.WinSpec.ofSpec (Memref.whole main_arg3) S32x1024.size reads0_2 false true 1 stage0_2 sem0_2 nbuf0_2 hstage0_2

abbrev spec0_3 : Pipeline.WinSpec sig grid0.rank :=
  Pipeline.WinSpec.ofSpec (Memref.whole main_arg4) S1x1024x1024.size reads0_3 false false 2 stage0_3 sem0_3 nbuf0_3 hstage0_3

abbrev spec0_4 : Pipeline.WinSpec sig grid0.rank :=
  Pipeline.WinSpec.ofSpec (Memref.whole main_arg5) S32x1024.size reads0_4 false true 1 stage0_4 sem0_4 nbuf0_4 hstage0_4

abbrev spec0_5 : Pipeline.WinSpec sig grid0.rank :=
  Pipeline.WinSpec.ofSpec (Memref.whole main_v0) S1x512x1024.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 k0_off1_inb numel1_S1 pf | 2 => cc0_transform_2 | 3 => cc0_transform_3 k0_off1_inb numel1_S1 pf | 4 => cc0_transform_4 | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | 3 => hreads0_3 pf | 4 => hreads0_4 | 5 => hreads0_5 | ⟨_ + 6, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x1536x1024.size a ≤ S32x1536x1024.size a), EltTy.bits .f32 = 32 ∨ (Rect.block (s := S32x1536x1024) S1x1536x1024.size (cc0_transform_1 k0_off1_inb numel1_S1 pf i) h).WholeWords (EltTy.packing .f32)) ∧
  (∀ i : grid0.Coords, ∃ h : (∀ a, (cc0_transform_3 k0_off1_inb numel1_S1 pf i a + 1) * S1x1024x1024.size a ≤ S32x1024x1024.size a), EltTy.bits .f32 = 32 ∨ (Rect.block (s := S32x1024x1024) S1x1024x1024.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => hinb0_2 | 3 => fun i a => (hok.2 i).elim fun h _ => h a | 4 => hinb0_4 | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => hwx0_2 | 3 => fun i => (hok.2 i).elim fun _ h => h | 4 => hwx0_4 | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S64x1024x1536 : Shape := ⟨3, ![64, 1024, 1536]⟩
abbrev S64 : Shape := ⟨1, ![64]⟩
abbrev S32x1536x1024 : Shape := ⟨3, ![32, 1536, 1024]⟩
abbrev S32x1024 : Shape := ⟨2, ![32, 1024]⟩
abbrev S32x1024x1024 : Shape := ⟨3, ![32, 1024, 1024]⟩
abbrev S_ : Shape := ⟨0, ![]⟩
abbrev S64x1 : Shape := ⟨2, ![64, 1]⟩
abbrev S64x1536x1024 : Shape := ⟨3, ![64, 1536, 1024]⟩
abbrev S64x1024x1024 : Shape := ⟨3, ![64, 1024, 1024]⟩
abbrev S64x1024 : Shape := ⟨2, ![64, 1024]⟩
abbrev S64x1x1024 : Shape := ⟨3, ![64, 1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S64x1024x1536, .f32⟩
  | .hbm, ⟨1, _⟩ => ⟨S64, .i32⟩
  | .hbm, ⟨2, _⟩ => ⟨S32x1536x1024, .f32⟩
  | .hbm, ⟨3, _⟩ => ⟨S32x1024, .f32⟩
  | .hbm, ⟨4, _⟩ => ⟨S32x1024x1024, .f32⟩
  | .hbm, ⟨5, _⟩ => ⟨S32x1024, .f32⟩
  | .hbm, ⟨6, _⟩ => ⟨S_, .i32⟩
  | .hbm, ⟨7, _⟩ => ⟨S64, .i32⟩
  | .hbm, ⟨8, _⟩ => ⟨S64, .i1⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S64x1, .i32⟩
  | .hbm, ⟨14, _⟩ => ⟨S64x1536x1024, .f32⟩
  | .hbm, ⟨15, _⟩ => ⟨S64x1024x1024, .f32⟩
  | .hbm, ⟨16, _⟩ => ⟨S_, .i32⟩
  | .hbm, ⟨17, _⟩ => ⟨S64, .i32⟩
  | .hbm, ⟨18, _⟩ => ⟨S64, .i1⟩
  | .hbm, ⟨19, _⟩ => ⟨S_, .i32⟩
  | .hbm, ⟨20, _⟩ => ⟨S64, .i32⟩
  | .hbm, ⟨21, _⟩ => ⟨S64, .i32⟩
  | .hbm, ⟨22, _⟩ => ⟨S64, .i32⟩
  | .hbm, ⟨23, _⟩ => ⟨S64x1, .i32⟩
  | .hbm, ⟨24, _⟩ => ⟨S64x1024, .f32⟩
  | .hbm, ⟨25, _⟩ => ⟨S64x1x1024, .f32⟩
  | .hbm, ⟨26, _⟩ => ⟨S64x1024x1024, .f32⟩
  | .hbm, ⟨27, _⟩ => ⟨S64x1024x1024, .f32⟩
  | .hbm, ⟨28, _⟩ => ⟨S_, .f32⟩
  | .hbm, ⟨29, _⟩ => ⟨S64x1024x1024, .f32⟩
  | .hbm, ⟨30, _⟩ => ⟨S64x1024x1024, .f32⟩
  | .hbm, ⟨31, _⟩ => ⟨S_, .i32⟩
  | .hbm, ⟨32, _⟩ => ⟨S64, .i32⟩
  | .hbm, ⟨33, _⟩ => ⟨S64, .i1⟩
  | .hbm, ⟨34, _⟩ => ⟨S_, .i32⟩
  | .hbm, ⟨35, _⟩ => ⟨S64, .i32⟩
  | .hbm, ⟨36, _⟩ => ⟨S64, .i32⟩
  | .hbm, ⟨37, _⟩ => ⟨S64, .i32⟩
  | .hbm, ⟨38, _⟩ => ⟨S64x1, .i32⟩
  | .hbm, ⟨39, _⟩ => ⟨S64x1024x1024, .f32⟩
  | .hbm, ⟨40, _⟩ => ⟨S64x1024x1024, .f32⟩
  | .hbm, ⟨41, _⟩ => ⟨S_, .i32⟩
  | .hbm, ⟨42, _⟩ => ⟨S64, .i32⟩
  | .hbm, ⟨43, _⟩ => ⟨S64, .i1⟩
  | .hbm, ⟨44, _⟩ => ⟨S_, .i32⟩
  | .hbm, ⟨45, _⟩ => ⟨S64, .i32⟩
  | .hbm, ⟨46, _⟩ => ⟨S64, .i32⟩
  | .hbm, ⟨47, _⟩ => ⟨S64, .i32⟩
  | .hbm, ⟨48, _⟩ => ⟨S64x1, .i32⟩
  | .hbm, ⟨49, _⟩ => ⟨S64x1024, .f32⟩
  | .hbm, ⟨50, _⟩ => ⟨S64x1x1024, .f32⟩
  | .hbm, ⟨51, _⟩ => ⟨S64x1024x1024, .f32⟩
  | .hbm, ⟨52, _⟩ => ⟨S64x1024x1024, .f32⟩
  | _, _ => ⟨S64x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S64x1024_S64x1x1024_0_2 : S64x1024.BroadcastsInDim S64x1x1024 (![0, 2] : Fin 2 → Fin S64x1x1024.rank)
  bcast_S64x1x1024_S64x1024x1024_0_1_2 : S64x1x1024.BroadcastsInDim S64x1024x1024 (![0, 1, 2] : Fin 3 → Fin S64x1024x1024.rank)
  bcast_S_S64x1024x1024 : S_.BroadcastsInDim S64x1024x1024 (![] : Fin 0 → Fin S64x1024x1024.rank)
  gather_S32x1536x1024_S64x1_S64x1536x1024_12_0_n_n_0_1_115361024_wf : GatherDims.WF S32x1536x1024 S64x1 S64x1536x1024 [1, 2] [0] [] [0] [] 1 ![1, 1536, 1024]
  dot_S64x1024x1536_S64x1536x1024_S64x1024x1024_2_1_1_2_0_0_wf : DotDims.WF S64x1024x1536 S64x1536x1024 S64x1024x1024 [2] [1] [1] [2] [0] [0]
  gather_S32x1024_S64x1_S64x1024_1_0_n_n_0_1_11024_wf : GatherDims.WF S32x1024 S64x1 S64x1024 [1] [0] [] [0] [] 1 ![1, 1024]
  gather_S32x1024x1024_S64x1_S64x1024x1024_12_0_n_n_0_1_110241024_wf : GatherDims.WF S32x1024x1024 S64x1 S64x1024x1024 [1, 2] [0] [] [0] [] 1 ![1, 1024, 1024]
  dot_S64x1024x1024_S64x1024x1024_S64x1024x1024_2_1_1_2_0_0_wf : DotDims.WF S64x1024x1024 S64x1024x1024 S64x1024x1024 [2] [1] [1] [2] [0] [0]

variable [Facts₀]

def gather_S32x1536x1024_S64x1_S64x1536x1024_12_0_n_n_0_1_115361024 : GatherDims S32x1536x1024 S64x1 S64x1536x1024 where
  offsetDims := [1, 2]
  collapsedSliceDims := [0]
  operandBatchingDims := []
  startIndicesBatchingDims := []
  startIndexMap := [0]
  indexVectorDim := 1
  sliceSizes := ![1, 1536, 1024]
  wf := gather_S32x1536x1024_S64x1_S64x1536x1024_12_0_n_n_0_1_115361024_wf
def dot_S64x1024x1536_S64x1536x1024_S64x1024x1024_2_1_1_2_0_0 : DotDims S64x1024x1536 S64x1536x1024 S64x1024x1024 where
  lhsContracting := [2]
  rhsContracting := [1]
  lhsNonContracting := [1]
  rhsNonContracting := [2]
  lhsBatch := [0]
  rhsBatch := [0]
  wf := dot_S64x1024x1536_S64x1536x1024_S64x1024x1024_2_1_1_2_0_0_wf
def gather_S32x1024_S64x1_S64x1024_1_0_n_n_0_1_11024 : GatherDims S32x1024 S64x1 S64x1024 where
  offsetDims := [1]
  collapsedSliceDims := [0]
  operandBatchingDims := []
  startIndicesBatchingDims := []
  startIndexMap := [0]
  indexVectorDim := 1
  sliceSizes := ![1, 1024]
  wf := gather_S32x1024_S64x1_S64x1024_1_0_n_n_0_1_11024_wf
def gather_S32x1024x1024_S64x1_S64x1024x1024_12_0_n_n_0_1_110241024 : GatherDims S32x1024x1024 S64x1 S64x1024x1024 where
  offsetDims := [1, 2]
  collapsedSliceDims := [0]
  operandBatchingDims := []
  startIndicesBatchingDims := []
  startIndexMap := [0]
  indexVectorDim := 1
  sliceSizes := ![1, 1024, 1024]
  wf := gather_S32x1024x1024_S64x1_S64x1024x1024_12_0_n_n_0_1_110241024_wf
def dot_S64x1024x1024_S64x1024x1024_S64x1024x1024_2_1_1_2_0_0 : DotDims S64x1024x1024 S64x1024x1024 S64x1024x1024 where
  lhsContracting := [2]
  rhsContracting := [1]
  lhsNonContracting := [1]
  rhsNonContracting := [2]
  lhsBatch := [0]
  rhsBatch := [0]
  wf := dot_S64x1024x1024_S64x1024x1024_S64x1024x1024_2_1_1_2_0_0_wf

class Facts : Prop extends Facts₀ where

variable [Facts]
-- ==== Proof.CatRange.lean ====
/-
  The precondition, decoded for the category words.

  Beside the finiteness of the float inputs the precondition says, of every one of the 64 category words, that it is
  at least 0 and below 32 as a signed number.  Its printed form is a conjunction of `jnp.all` reductions; the last
  conjunct is the reduction, over the 64 words, of the two signed comparisons joined by `and`.  A reduction by `and`
  that came out 1 met only 1s, so both comparisons hold at every word, and a word in [0, 32) signed is below 32
  read as a natural number — the reading under which the kernel uses it as a block index and as a row offset.
-/
import proofs.«425779_j14078902796564_1_alg».proof.Pre_finite_inputs
import Idealize.ShloMosaic.Lib.ReduceAll
import Idealize.ShloMosaic.Lib.ValueIdx
import Idealize.ShloMosaic.Lib.StableHlo.Predicate

noncomputable section

namespace Cert.CatRange

open Idealize.ShloMosaic Idealize.ShloMosaic.ValueIdx Cert.Pre_finite_inputs

variable {F : FTy → Type} [FloatOps F] [Facts]

instance : Subsingleton S_.Idx := ⟨fun a b => funext fun d => d.elim0⟩

/-- Both signed comparisons hold at every category word. -/
theorem cmp_of_pre (x : FVec F S64x1024x1536 .f32) (ids : IVec S64 32) (W1 : FVec F S32x1536x1024 .f32)
    (b1 : FVec F S32x1024 .f32) (W2 : FVec F S32x1024x1024 .f32) (b2 : FVec F S32x1024 .f32)
    (h : fn (F := F) x ids W1 b1 W2 b2 = fun _ => 1#1) (b : Fin 64) :
    IntOp.cmpi .sge (ids (ix1 b)) 0#32 = 1#1 ∧ IntOp.cmpi .slt (ids (ix1 b)) 32#32 = 1#1 := by
  have e := congrFun h ix0
  dsimp only [fn, fn_part1] at e
  -- the outermost `and`: everything before, and the reduction over the category words
  obtain ⟨-, e29⟩ := IntOp.andi_eq_one.1 e
  have e28 := Host.reduce_andi_all _ _ _ _ _ e29 (ix1 b)
  exact IntOp.andi_eq_one.1 e28

/-- A word that is signed-nonnegative and signed-below 32 is below 32 as a natural number. -/
theorem toNat_lt_of_cmp (w : BitVec 32) (h0 : IntOp.cmpi .sge w 0#32 = 1#1) (h1 : IntOp.cmpi .slt w 32#32 = 1#1) :
    w.toNat < 32 := by
  unfold IntOp.cmpi at h0 h1
  rw [StableHlo.Predicate.ofBool_eq_one_iff] at h0 h1
  simp only [BitVec.slt, BitVec.sle, decide_eq_true_eq] at h0 h1
  have h32 := w.isLt
  unfold BitVec.toInt at h0 h1
  split at h1 <;> simp at h0 h1 <;> omega

/-- THE RANGE: under the precondition every category word is below 32 as a natural number. -/
theorem lt_of_pre (x : FVec F S64x1024x1536 .f32) (ids : IVec S64 32) (W1 : FVec F S32x1536x1024 .f32)
    (b1 : FVec F S32x1024 .f32) (W2 : FVec F S32x1024x1024 .f32) (b2 : FVec F S32x1024 .f32)
    (h : fn (F := F) x ids W1 b1 W2 b2 = fun _ => 1#1) (b : Fin 64) : (ids (ix1 b)).toNat < 32 :=
  toNat_lt_of_cmp _ (cmp_of_pre x ids W1 b1 W2 b2 h b).1 (cmp_of_pre x ids W1 b1 W2 b2 h b).2

end Cert.CatRange

end
-- ==== Proof.KernelHyps.lean ====
/-
  The two hypotheses the generated frame of this program is stated under, from the precondition.

  The kernel reads sample `b`'s category word `c` from the prefetched table and uses it twice: as the block index of
  both weight windows (block `c` of the [32, 1536, 1024] and of the [32, 1024, 1024] array, one expert's matrix each),
  and as the row at which it loads one [1, 1024] row of each bias table.  The block lies inside its array, and the
  row inside its table, exactly when `c < 32` as a natural number — which the precondition gives for every word
  (Proof/CatRange.lean).  The table is read at offset `i 0`, the sample's own grid coordinate, which is below 64 and
  so survives the round trip through a 32-bit word.
-/
import proofs.«425779_j14078902796564_1_alg».proof.Defs
import proofs.«425779_j14078902796564_1_alg».proof.Proof.Gen.Kernel.Frame
import proofs.«425779_j14078902796564_1_alg».proof.Proof.CatRange

set_option maxRecDepth 16384

noncomputable section

namespace Cert.Kernel.Routing

open Cert.Kernel Cert.Kernel.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- Sample `b`'s category word, as the region reads it off the launch memory. -/
abbrev word (b : Fin 64) : BitVec 32 := tbl m 0 (ix1 b)

/-- A grid coordinate along the batch axis, as a 32-bit word and back, is itself. -/
theorem coord_word (i : grid0.Coords) : (Scalar.indexCast (BitVec.ofNat 32 (i 0).val)).toNat = (i 0).val := by
  have h64 : (i 0).val < 64 := (i 0).isLt
  show (BitVec.ofNat 32 (i 0).val).toNat = _
  rw [BitVec.toNat_ofNat]
  exact Nat.mod_eq_of_lt (by omega)

/-- The one-word rectangle of the table at offset `i 0` names the table's index `i 0`. -/
theorem rect_idx (i : grid0.Coords) (off : Fin 1 → Nat) (hoff : off 0 = (i 0).val)
    (inb : ∀ a, off a + S1.size a ≤ S64.size a) (h1 : 0 < S1.numel) :
    (Rect.unit (s := S64) off S1.size inb).idx (Shape.Idx.first h1) = ix1 (i 0) := by
  funext a
  apply Fin.ext
  match a with
  | ⟨0, _⟩ =>
    show off 0 + 1 * 0 = (i 0).val
    rw [hoff]; omega

/-- What an index map reads from the table at grid point `i` is sample `i 0`'s word. -/
theorem map_word (i : grid0.Coords) :
    (tbl m).at 0 (Rect.unit (s := S64) ![(Scalar.indexCast (BitVec.ofNat 32 (i 0).val)).toNat] S1.size (k0_off1_inb i)) numel1_S1
      = word m (i 0) :=
  congrArg (tbl m 0) (rect_idx i _ (coord_word i) _ _)

/-- What the body reads from the table at grid point `i` is the same word. -/
theorem body_word (i : grid0.Coords) (h1 : 0 < S1.numel) :
    tbM0_0.view.readAt (Elt F) (Rect.unit (s := S64) (k0_off1 i) S1.size (k0_off1_inb i)).toLoadRect (tbl m 0) (Shape.Idx.first h1)
      = word m (i 0) :=
  congrArg (tbl m 0) (rect_idx i _ (coord_word i) _ _)

/-- Block `c` of a [32, r, q] array of [1, r, q] blocks lies inside it when `c < 32`. -/
theorem block_inside (c r q : Nat) (hc : c < 32) (a : Fin 3) :
    ((![c, 0, 0] : Fin 3 → Nat) a + 1) * (![1, r, q] : Fin 3 → Nat) a ≤ (![32, r, q] : Fin 3 → Nat) a := by
  match a with
  | ⟨0, _⟩ => show (c + 1) * 1 ≤ 32; omega
  | ⟨1, _⟩ => show (0 + 1) * r ≤ r; omega
  | ⟨2, _⟩ => show (0 + 1) * q ≤ q; omega

/-- A word below 32 names a row of a [32, 1024] bias table: the one-row rectangle at it lies inside. -/
theorem row_inside (w : BitVec 32) (hw : w.toNat < 32) : k0_chk1 w := by
  intro a
  match a with
  | ⟨0, _⟩ => show (Scalar.indexCast w).toNat + 1 ≤ 32; show w.toNat + 1 ≤ 32; omega
  | ⟨1, _⟩ => show 0 + 1024 ≤ 1024; omega

/-! ## From the precondition -/

section FromPre
variable [hPre : Cert.Pre_finite_inputs.Facts]

/-- The precondition of the launch memory, at any float instance: the printed predicate of the six argument arrays
    is all ones on every device. -/
def PreAt : Prop :=
  ∀ c : Dev nD, Cert.Pre_finite_inputs.fn (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) = (fun _ => 1#1)

/-- Under the precondition every category word is below 32. -/
theorem word_lt (h : PreAt m) (b : Fin 64) : (word m b).toNat < 32 :=
  Cert.CatRange.lt_of_pre _ _ _ _ _ _ (h 0) b

/-- THE PIPELINE'S SIDE CONDITION: at every grid point both weight windows' blocks, indexed by the sample's word, lie
    inside their arrays (their elements are whole 32-bit words, so the transfers end on word boundaries). -/
theorem ok_of_pre (h : PreAt m) : Ok m := by
  refine ⟨fun i => ?_, fun i => ?_⟩
  · have e : cc0_transform_1 k0_off1_inb numel1_S1 (tbl m) i = ![(word m (i 0)).toNat, 0, 0] :=
      congrArg (fun w : BitVec 32 => (![w.toNat, 0, 0] : Fin 3 → Nat)) (map_word m i)
    exact ⟨fun a => by rw [e]; exact block_inside _ 1536 1024 (word_lt m h (i 0)) a, Or.inl rfl⟩
  · have e : cc0_transform_3 k0_off1_inb numel1_S1 (tbl m) i = ![(word m (i 0)).toNat, 0, 0] :=
      congrArg (fun w : BitVec 32 => (![w.toNat, 0, 0] : Fin 3 → Nat)) (map_word m i)
    exact ⟨fun a => by rw [e]; exact block_inside _ 1024 1024 (word_lt m h (i 0)) a, Or.inl rfl⟩

/-- THE BODY'S ASSUMED SIDE CONDITION, at every grid point: the word it has just read names a row of the bias tables. -/
theorem hyps_of_pre (h : PreAt m) (hO : Ok m) : Hyps m hO :=
  Hyps.of fun c t => by
    show k0_chk1 _
    rw [body_word m (grid0.coords t)]
    exact row_inside _ (word_lt m h _)

end FromPre

end Cert.Kernel.Routing

end
-- ==== Proof.KernelIdealHyps.lean ====
/-
  The two hypotheses the generated frame of this program is stated under, from the precondition.

  The kernel reads sample `b`'s category word `c` from the prefetched table and uses it twice: as the block index of
  both weight windows (block `c` of the [32, 1536, 1024] and of the [32, 1024, 1024] array, one expert's matrix each),
  and as the row at which it loads one [1, 1024] row of each bias table.  The block lies inside its array, and the
  row inside its table, exactly when `c < 32` as a natural number — which the precondition gives for every word
  (Proof/CatRange.lean).  The table is read at offset `i 0`, the sample's own grid coordinate, which is below 64 and
  so survives the round trip through a 32-bit word.
-/
import proofs.«425779_j14078902796564_1_alg».proof.Defs
import proofs.«425779_j14078902796564_1_alg».proof.Proof.Gen.KernelIdeal.Frame
import proofs.«425779_j14078902796564_1_alg».proof.Proof.CatRange

set_option maxRecDepth 16384

noncomputable section

namespace Cert.KernelIdeal.Routing

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- Sample `b`'s category word, as the region reads it off the launch memory. -/
abbrev word (b : Fin 64) : BitVec 32 := tbl m 0 (ix1 b)

/-- A grid coordinate along the batch axis, as a 32-bit word and back, is itself. -/
theorem coord_word (i : grid0.Coords) : (Scalar.indexCast (BitVec.ofNat 32 (i 0).val)).toNat = (i 0).val := by
  have h64 : (i 0).val < 64 := (i 0).isLt
  show (BitVec.ofNat 32 (i 0).val).toNat = _
  rw [BitVec.toNat_ofNat]
  exact Nat.mod_eq_of_lt (by omega)

/-- The one-word rectangle of the table at offset `i 0` names the table's index `i 0`. -/
theorem rect_idx (i : grid0.Coords) (off : Fin 1 → Nat) (hoff : off 0 = (i 0).val)
    (inb : ∀ a, off a + S1.size a ≤ S64.size a) (h1 : 0 < S1.numel) :
    (Rect.unit (s := S64) off S1.size inb).idx (Shape.Idx.first h1) = ix1 (i 0) := by
  funext a
  apply Fin.ext
  match a with
  | ⟨0, _⟩ =>
    show off 0 + 1 * 0 = (i 0).val
    rw [hoff]; omega

/-- What an index map reads from the table at grid point `i` is sample `i 0`'s word. -/
theorem map_word (i : grid0.Coords) :
    (tbl m).at 0 (Rect.unit (s := S64) ![(Scalar.indexCast (BitVec.ofNat 32 (i 0).val)).toNat] S1.size (k0_off1_inb i)) numel1_S1
      = word m (i 0) :=
  congrArg (tbl m 0) (rect_idx i _ (coord_word i) _ _)

/-- What the body reads from the table at grid point `i` is the same word. -/
theorem body_word (i : grid0.Coords) (h1 : 0 < S1.numel) :
    tbM0_0.view.readAt (Elt F) (Rect.unit (s := S64) (k0_off1 i) S1.size (k0_off1_inb i)).toLoadRect (tbl m 0) (Shape.Idx.first h1)
      = word m (i 0) :=
  congrArg (tbl m 0) (rect_idx i _ (coord_word i) _ _)

/-- Block `c` of a [32, r, q] array of [1, r, q] blocks lies inside it when `c < 32`. -/
theorem block_inside (c r q : Nat) (hc : c < 32) (a : Fin 3) :
    ((![c, 0, 0] : Fin 3 → Nat) a + 1) * (![1, r, q] : Fin 3 → Nat) a ≤ (![32, r, q] : Fin 3 → Nat) a := by
  match a with
  | ⟨0, _⟩ => show (c + 1) * 1 ≤ 32; omega
  | ⟨1, _⟩ => show (0 + 1) * r ≤ r; omega
  | ⟨2, _⟩ => show (0 + 1) * q ≤ q; omega

/-- A word below 32 names a row of a [32, 1024] bias table: the one-row rectangle at it lies inside. -/
theorem row_inside (w : BitVec 32) (hw : w.toNat < 32) : k0_chk1 w := by
  intro a
  match a with
  | ⟨0, _⟩ => show (Scalar.indexCast w).toNat + 1 ≤ 32; show w.toNat + 1 ≤ 32; omega
  | ⟨1, _⟩ => show 0 + 1024 ≤ 1024; omega

/-! ## From the precondition -/

section FromPre
variable [hPre : Cert.Pre_finite_inputs.Facts]

/-- The precondition of the launch memory, at any float instance: the printed predicate of the six argument arrays
    is all ones on every device. -/
def PreAt : Prop :=
  ∀ c : Dev nD, Cert.Pre_finite_inputs.fn (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) = (fun _ => 1#1)

/-- Under the precondition every category word is below 32. -/
theorem word_lt (h : PreAt m) (b : Fin 64) : (word m b).toNat < 32 :=
  Cert.CatRange.lt_of_pre _ _ _ _ _ _ (h 0) b

/-- THE PIPELINE'S SIDE CONDITION: at every grid point both weight windows' blocks, indexed by the sample's word, lie
    inside their arrays (their elements are whole 32-bit words, so the transfers end on word boundaries). -/
theorem ok_of_pre (h : PreAt m) : Ok m := by
  refine ⟨fun i => ?_, fun i => ?_⟩
  · have e : cc0_transform_1 k0_off1_inb numel1_S1 (tbl m) i = ![(word m (i 0)).toNat, 0, 0] :=
      congrArg (fun w : BitVec 32 => (![w.toNat, 0, 0] : Fin 3 → Nat)) (map_word m i)
    exact ⟨fun a => by rw [e]; exact block_inside _ 1536 1024 (word_lt m h (i 0)) a, Or.inl rfl⟩
  · have e : cc0_transform_3 k0_off1_inb numel1_S1 (tbl m) i = ![(word m (i 0)).toNat, 0, 0] :=
      congrArg (fun w : BitVec 32 => (![w.toNat, 0, 0] : Fin 3 → Nat)) (map_word m i)
    exact ⟨fun a => by rw [e]; exact block_inside _ 1024 1024 (word_lt m h (i 0)) a, Or.inl rfl⟩

/-- THE BODY'S ASSUMED SIDE CONDITION, at every grid point: the word it has just read names a row of the bias tables. -/
theorem hyps_of_pre (h : PreAt m) (hO : Ok m) : Hyps m hO :=
  Hyps.of fun c t => by
    show k0_chk1 _
    rw [body_word m (grid0.coords t)]
    exact row_inside _ (word_lt m h _)

end FromPre

end Cert.KernelIdeal.Routing

end
-- ==== Proof.Spec.lean ====
/-
  The function both programs compute, stated once over the argument arrays.

  Sample `b` of the batch carries a category word; the word, read as a natural number and kept below 32, names one of
  32 experts `e`.  Each expert is a two-layer perceptron acting on one row of activations: with first-layer weights
  `w1`, bias `c1`, second-layer weights `w2` and bias `c2`, the hidden activation at unit `k` is
  `max (∑ d, x[d] · w1[d,k] + c1[k]) 0` and the result at column `n` is `∑ k, hidden[k] · w2[k,n] + c2[n]`.
  Every operation is the exact one on the extended reals, and the sums run over the plain coordinate ranges, so the
  definition fixes no tiling and no order of accumulation beyond that of a finite sum.
-/
import Idealize.ShloMosaic.PureOps.Ideal
import Idealize.ShloMosaic.Lib.ValueIdx

noncomputable section

namespace Cert.ExpertMlp

open Idealize.ShloMosaic Idealize.ShloMosaic.ValueIdx

/-- Activations [64, 1024, 1536]; category words [64]; first-layer weights [32, 1536, 1024]; biases [32, 1024];
    second-layer weights [32, 1024, 1024]; result [64, 1024, 1024]. -/
abbrev SX : Shape := ⟨3, ![64, 1024, 1536]⟩
abbrev SIds : Shape := ⟨1, ![64]⟩
abbrev SW1 : Shape := ⟨3, ![32, 1536, 1024]⟩
abbrev SBias : Shape := ⟨2, ![32, 1024]⟩
abbrev SW2 : Shape := ⟨3, ![32, 1024, 1024]⟩
abbrev SOut : Shape := ⟨3, ![64, 1024, 1024]⟩

/-- ONE ROW THROUGH ONE EXPERT: the affine map into 1024 hidden units, the positive part, the affine map out,
    read at result column `n`. -/
def perceptron (xr : Fin 1536 → Ideal .f32) (w1 : Fin 1536 → Fin 1024 → Ideal .f32) (c1 : Fin 1024 → Ideal .f32)
    (w2 : Fin 1024 → Fin 1024 → Ideal .f32) (c2 : Fin 1024 → Ideal .f32) (n : Fin 1024) : Ideal .f32 :=
  (∑ k : Fin 1024, max ((∑ d : Fin 1536, xr d * w1 d k) + c1 k) (Ideal.ofBits .f32 0x00000000#32) * w2 k n) + c2 n

/-- The expert sample `b` is routed to: its category word as a natural number, kept inside the 32 experts (for a
    word already in range the minimum changes nothing). -/
def expert (ids : IVec SIds 32) (b : Fin 64) : Fin 32 :=
  ⟨min (ids (ix1 b)).toNat 31, Nat.lt_succ_of_le (Nat.min_le_right _ _)⟩

/-- A word below 32 is its own expert. -/
theorem expert_val (ids : IVec SIds 32) (b : Fin 64) (h : (ids (ix1 b)).toNat < 32) :
    (expert ids b).val = (ids (ix1 b)).toNat := by
  show min _ 31 = _
  omega

/-- Row `t` of sample `b` through expert `e`, at column `n`: the perceptron on the row, with the expert's slices of the
    four parameter arrays. -/
def routed (x : FVec Ideal SX .f32) (W1 : FVec Ideal SW1 .f32) (b1 : FVec Ideal SBias .f32)
    (W2 : FVec Ideal SW2 .f32) (b2 : FVec Ideal SBias .f32)
    (e : Fin 32) (b : Fin 64) (t : Fin 1024) (n : Fin 1024) : Ideal .f32 :=
  perceptron (fun d => x (ix3 b t d)) (fun d k => W1 (ix3 e d k)) (fun k => b1 (ix2 e k))
    (fun k n => W2 (ix3 e k n)) (fun n => b2 (ix2 e n)) n

/-- THE RESULT: entry (b, t, n) is row `t` of sample `b` through the sample's expert, at column `n`. -/
def result (x : FVec Ideal SX .f32) (ids : IVec SIds 32) (W1 : FVec Ideal SW1 .f32) (b1 : FVec Ideal SBias .f32)
    (W2 : FVec Ideal SW2 .f32) (b2 : FVec Ideal SBias .f32) : FVec Ideal SOut .f32 :=
  fun j => routed x W1 b1 W2 b2 (expert ids (j 0)) (j 0) (j 1) (j 2)

theorem result_apply (x : FVec Ideal SX .f32) (ids : IVec SIds 32) (W1 : FVec Ideal SW1 .f32) (b1 : FVec Ideal SBias .f32)
    (W2 : FVec Ideal SW2 .f32) (b2 : FVec Ideal SBias .f32) (b : Fin 64) (t : Fin 1024) (n : Fin 1024) :
    result x ids W1 b1 W2 b2 (ix3 b t n) = routed x W1 b1 W2 b2 (expert ids b) b t n := rfl

end Cert.ExpertMlp

end
-- ==== Proof.KernelRow.lean ====
/-
  The kernel body's one stored value, read at an index.

  At a grid point the body holds a [1, 512, 1536] block of activations, one expert's [1, 1536, 1024] and
  [1, 1024, 1024] weight matrices, and one [1, 1024] row of each bias table.  It drops the unit axes, multiplies the
  512 rows by the first matrix into a zero accumulator (at the exact values that is the plain sum over the 1536
  inner coordinates; the narrowing of the operands to the short float format changes nothing there), adds the bias
  row to every row, takes the positive part, multiplies by the second matrix (the sum over the 1024 hidden units),
  adds the second bias row, and puts the unit axis back.  So entry (0, r, n) of the stored block is the perceptron
  of Proof/Spec.lean applied to row `r` of the activations block.
-/
import proofs.«425779_j14078902796564_1_alg».proof.Proof.Gen.KernelIdeal.Skeleton
import proofs.«425779_j14078902796564_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Cert.ExpertMlp
open Idealize.ShloMosaic Idealize.ShloMosaic.ValueIdx

/-! ## The two matrix products: which operand entries meet at an output entry -/

theorem lhs_first_0 (j : S512x1024.Idx) (q : dot_S512x1536_S1536x1024_S512x1024_1_0_0_1_n_n.contr.Idx) :
    (dot_S512x1536_S1536x1024_S512x1024_1_0_0_1_n_n.lhsIdx j q 0).val = (j 0).val := by
  unfold DotDims.lhsIdx
  rw [dif_neg (show ¬(0 : Fin S512x1536.rank) ∈ dot_S512x1536_S1536x1024_S512x1024_1_0_0_1_n_n.lhsBatch by decide), dif_pos (show (0 : Fin S512x1536.rank) ∈ dot_S512x1536_S1536x1024_S512x1024_1_0_0_1_n_n.lhsNonContracting by decide)]
  rfl
theorem lhs_first_1 (j : S512x1024.Idx) (q : dot_S512x1536_S1536x1024_S512x1024_1_0_0_1_n_n.contr.Idx) :
    (dot_S512x1536_S1536x1024_S512x1024_1_0_0_1_n_n.lhsIdx j q 1).val = (q ⟨0, by decide⟩).val :=
  dot_S512x1536_S1536x1024_S512x1024_1_0_0_1_n_n.lhsIdx_val_of_single rfl j q
theorem rhs_first_0 (j : S512x1024.Idx) (q : dot_S512x1536_S1536x1024_S512x1024_1_0_0_1_n_n.contr.Idx) :
    (dot_S512x1536_S1536x1024_S512x1024_1_0_0_1_n_n.rhsIdx j q 0).val = (q ⟨0, by decide⟩).val :=
  dot_S512x1536_S1536x1024_S512x1024_1_0_0_1_n_n.rhsIdx_val_of_single rfl j q
theorem rhs_first_1 (j : S512x1024.Idx) (q : dot_S512x1536_S1536x1024_S512x1024_1_0_0_1_n_n.contr.Idx) :
    (dot_S512x1536_S1536x1024_S512x1024_1_0_0_1_n_n.rhsIdx j q 1).val = (j 1).val := by
  unfold DotDims.rhsIdx
  rw [dif_neg (show ¬(1 : Fin S1536x1024.rank) ∈ dot_S512x1536_S1536x1024_S512x1024_1_0_0_1_n_n.rhsBatch by decide), dif_pos (show (1 : Fin S1536x1024.rank) ∈ dot_S512x1536_S1536x1024_S512x1024_1_0_0_1_n_n.rhsNonContracting by decide)]
  rfl

/-- Rows times the first matrix into the zero accumulator: entry (r, k) is the sum over the 1536 inner coordinates. -/
theorem first_product {φ₁ φ₂ : FTy} (a : FVec Ideal S512x1536 φ₁) (w : FVec Ideal S1536x1024 φ₂) (r : Fin 512) (k : Fin 1024) :
    matmul dot_S512x1536_S1536x1024_S512x1024_1_0_0_1_n_n none a w (constant S512x1024 .f32 0x00000000#32) (ix2 r k)
      = ∑ d : Fin 1536, a (ix2 r d) * w (ix2 d k) := by
  simp only [matmul]
  rw [Ideal.matmul_constant_zero_apply, ← Equiv.sum_comp (contrEquiv1 dot_S512x1536_S1536x1024_S512x1024_1_0_0_1_n_n 1536 rfl rfl).symm]
  refine Finset.sum_congr rfl fun d _ => ?_
  have hd := contrEquiv1_symm_val dot_S512x1536_S1536x1024_S512x1024_1_0_0_1_n_n 1536 rfl rfl d
  have el : dot_S512x1536_S1536x1024_S512x1024_1_0_0_1_n_n.lhsIdx (ix2 r k) ((contrEquiv1 dot_S512x1536_S1536x1024_S512x1024_1_0_0_1_n_n 1536 rfl rfl).symm d) = ix2 r d := funext fun x => Fin.ext (by
    match x with
    | ⟨0, _⟩ => exact lhs_first_0 _ _
    | ⟨1, _⟩ => exact (lhs_first_1 _ _).trans hd)
  have er : dot_S512x1536_S1536x1024_S512x1024_1_0_0_1_n_n.rhsIdx (ix2 r k) ((contrEquiv1 dot_S512x1536_S1536x1024_S512x1024_1_0_0_1_n_n 1536 rfl rfl).symm d) = ix2 d k := funext fun x => Fin.ext (by
    match x with
    | ⟨0, _⟩ => exact (rhs_first_0 _ _).trans hd
    | ⟨1, _⟩ => exact rhs_first_1 _ _)
  rw [el, er]

theorem lhs_second_0 (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_second_1 (j : S512x1024.Idx) (q : dot_S512x1024_S1024x1024_S512x1024_1_0_0_1_n_n.contr.Idx) :
    (dot_S512x1024_S1024x1024_S512x1024_1_0_0_1_n_n.lhsIdx j q 1).val = (q ⟨0, by decide⟩).val :=
  dot_S512x1024_S1024x1024_S512x1024_1_0_0_1_n_n.lhsIdx_val_of_single rfl j q
theorem rhs_second_0 (j : S512x1024.Idx) (q : dot_S512x1024_S1024x1024_S512x1024_1_0_0_1_n_n.contr.Idx) :
    (dot_S512x1024_S1024x1024_S512x1024_1_0_0_1_n_n.rhsIdx j q 0).val = (q ⟨0, by decide⟩).val :=
  dot_S512x1024_S1024x1024_S512x1024_1_0_0_1_n_n.rhsIdx_val_of_single rfl j q
theorem rhs_second_1 (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Hidden rows times the second matrix into the zero accumulator: entry (r, n) is the sum over the 1024 hidden units. -/
theorem second_product {φ₁ φ₂ : FTy} (a : FVec Ideal S512x1024 φ₁) (w : FVec Ideal S1024x1024 φ₂) (r : Fin 512) (n : Fin 1024) :
    matmul dot_S512x1024_S1024x1024_S512x1024_1_0_0_1_n_n none a w (constant S512x1024 .f32 0x00000000#32) (ix2 r n)
      = ∑ k : Fin 1024, a (ix2 r k) * w (ix2 k n) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r n) ((contrEquiv1 dot_S512x1024_S1024x1024_S512x1024_1_0_0_1_n_n 1024 rfl rfl).symm k) = ix2 r k := funext fun x => Fin.ext (by
    match x with
    | ⟨0, _⟩ => exact lhs_second_0 _ _
    | ⟨1, _⟩ => exact (lhs_second_1 _ _).trans hk)
  have er : dot_S512x1024_S1024x1024_S512x1024_1_0_0_1_n_n.rhsIdx (ix2 r n) ((contrEquiv1 dot_S512x1024_S1024x1024_S512x1024_1_0_0_1_n_n 1024 rfl rfl).symm k) = ix2 k n := funext fun x => Fin.ext (by
    match x with
    | ⟨0, _⟩ => exact (rhs_second_0 _ _).trans hk
    | ⟨1, _⟩ => exact rhs_second_1 _ _)
  rw [el, er]

/-! ## A bias row laid under every row of the block -/

/-- A [1, 1024] row, its unit axis dropped and put back, broadcast over 512 rows, reads at (r, k) the row at (0, k). -/
theorem bias_rows (v : FVec Ideal S1x1024 .f32) (r : Fin 512) (k : Fin 1024) :
    broadcastTo S512x1024 (shapeCast S1x1024 (shapeCast S1024 v shapeCasts_S1x1024_S1024) shapeCasts_S1024_S1x1024)
        broadcasts_S1x1024_S512x1024 (ix2 r k) = v (ix2 (0 : Fin 1) k) := by
  rw [broadcastTo_apply _ broadcasts_S1x1024_S512x1024 (ix2 r k) (ix2 (0 : Fin 1) k) (fun a => by
    match a with
    | ⟨0, _⟩ => show (0 : ℕ) = if (1 : ℕ) = 1 then 0 else _; rw [if_pos rfl]
    | ⟨1, _⟩ => show k.val = if (1024 : ℕ) = 1 then 0 else k.val; rw [if_neg (by decide)])]
  rw [shapeCast_a_1a_apply, shapeCast_1a_a_apply]

/-! ## The stored block at an index -/

/-- ENTRY (u, r, n) OF THE STORED BLOCK is the perceptron applied to row `r` of the activations block, with the loaded
    matrices and bias rows. -/
theorem stored_apply (v2 : Vec Ideal S1x512x1536 .f32) (v5 : Vec Ideal S1x1536x1024 .f32) (v10 : Vec Ideal S1x1024 .f32)
    (v18 : Vec Ideal S1x1024x1024 .f32) (v23 : Vec Ideal S1x1024 .f32) (u : Fin 1) (r : Fin 512) (n : Fin 1024) :
    k0_pay1 (F := Ideal) v2 v5 v10 v18 v23 (ix3 u r n)
      = perceptron (fun d => v2 (ix3 (0 : Fin 1) r d)) (fun d k => v5 (ix3 (0 : Fin 1) d k)) (fun k => v10 (ix2 (0 : Fin 1) k))
          (fun k n => v18 (ix3 (0 : Fin 1) k n)) (fun n => v23 (ix2 (0 : Fin 1) n)) n := by
  unfold k0_pay1 perceptron
  dsimp only
  rw [shapeCast_ab_1ab_apply]
  show (matmul dot_S512x1024_S1024x1024_S512x1024_1_0_0_1_n_n none _ _ (constant S512x1024 .f32 0x00000000#32) (ix2 r n) : Ideal .f32)
      + broadcastTo S512x1024 _ broadcasts_S1x1024_S512x1024 (ix2 r n) = _
  rw [second_product, bias_rows]
  refine congrArg (· + v23 (ix2 (0 : Fin 1) n)) (Finset.sum_congr rfl fun k _ => ?_)
  rw [truncf_apply, truncf_apply, shapeCast_1ab_ab_apply]
  refine congrArg (· * v18 (ix3 (0 : Fin 1) k n)) ?_
  show max ((matmul dot_S512x1536_S1536x1024_S512x1024_1_0_0_1_n_n none _ _ (constant S512x1024 .f32 0x00000000#32) (ix2 r k) : Ideal .f32)
      + broadcastTo S512x1024 _ broadcasts_S1x1024_S512x1024 (ix2 r k)) (Ideal.ofBits .f32 0x00000000#32) = _
  rw [first_product, bias_rows]
  refine congrArg (fun s => max (s + v10 (ix2 (0 : Fin 1) k)) (Ideal.ofBits .f32 0x00000000#32)) (Finset.sum_congr rfl fun d _ => ?_)
  show shapeCast S512x1536 v2 shapeCasts_S1x512x1536_S512x1536 (ix2 r d) * shapeCast S1536x1024 v5 shapeCasts_S1x1536x1024_S1536x1024 (ix2 d k) = _
  rw [shapeCast_1ab_ab_apply, shapeCast_1ab_ab_apply]

end Cert.KernelIdeal.Row

end
-- ==== Proof.KernelValue.lean ====
/-
  What the idealized kernel leaves in the result array.

  One grid point is one sample `b` and one half `h` of its 1024 rows.  The pipeline hands the body the [1, 512, 1536]
  block of activations at (b, 512·h, 0), blocks `c` of the two weight arrays — `c` the sample's category word —, and the
  two bias tables whole; the body loads row `c` of each table.  Its one store leaves in the output block, at (0, r, n),
  the perceptron of Proof/Spec.lean on row 512·h + r of sample `b` with expert `c`'s parameters (Proof/KernelRow.lean),
  and the block is written back at (b, 512·h, 0).  The 128 blocks tile the result array, so the array ends holding
  `Cert.ExpertMlp.result` of the six argument arrays.
-/
import proofs.«425779_j14078902796564_1_alg».proof.Defs
import proofs.«425779_j14078902796564_1_alg».proof.Proof.Gen.KernelIdeal.Frame
import proofs.«425779_j14078902796564_1_alg».proof.Proof.KernelIdealHyps
import proofs.«425779_j14078902796564_1_alg».proof.Proof.KernelRow
import proofs.«425779_j14078902796564_1_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Routing Cert.KernelIdeal.Row Cert.ExpertMlp
open Idealize.ShloMosaic Idealize.ShloMosaic.TcCoe Idealize.SL.Sem Idealize.ShloMosaic.ValueIdx Idealize.ShloMosaic.Tactic
open Idealize.ShloMosaic.Pipeline (Dat)

/-! ## The body's one store -/

theorem zeros3 : (![0, 0, 0] : Fin 3 → Nat) = fun _ => 0 := funext fun a => by fin_cases a <;> rfl

section AnyInstance
variable {F : FTy → Type} [FloatOps F]

/-- The output block the body leaves, on any staging memrefs and any contents: its one payload, of the three blocks
    loaded whole and of the one row of each bias table that the word read from the category table names. -/
theorem stored_block (c : Dev nD) (i : grid0.Coords) (arg3 : Memref sig .tc .vmem S1x512x1536 .f32) (harg3 : arg3.IsWhole) (arg4 : Memref sig .tc .vmem S1x1536x1024 .f32) (harg4 : arg4.IsWhole) (arg5 : Memref sig .tc .vmem S32x1024 .f32) (harg5 : arg5.IsWhole) (arg6 : Memref sig .tc .vmem S1x1024x1024 .f32) (harg6 : arg6.IsWhole) (arg7 : Memref sig .tc .vmem S32x1024 .f32) (harg7 : arg7.IsWhole) (arg8 : Memref sig .tc .vmem S1x512x1024 .f32) (harg8 : arg8.IsWhole)
    (x0 : Vec F S1x512x1536 .f32) (x1 : Vec F S1x1536x1024 .f32) (x2 : Vec F S32x1024 .f32) (x3 : Vec F S1x1024x1024 .f32) (x4 : Vec F S32x1024 .f32) (xt0 : TbBuf0 (F := F) c tbM0_0) (k0_hw1 : k0_chk1 (tbM0_0.view.readAt (Elt F) (Rect.unit (s := S64) (k0_off1 i) S1.size (k0_off1_inb i)).toLoadRect xt0 (Shape.Idx.first (numel1_S1.symm ▸ Nat.one_pos)))) :
    out0_A_5 c i arg3 harg3 arg4 harg4 arg5 harg5 arg6 harg6 arg7 harg7 arg8 harg8 x0 x1 x2 x3 x4 xt0 k0_hw1
      = k0_pay1 x0 x1
          (View.ld x2 (Rect.unit (s := S32x1024) (k0_off2 (tbM0_0.view.readAt (Elt F) (Rect.unit (s := S64) (k0_off1 i) S1.size (k0_off1_inb i)).toLoadRect xt0 (Shape.Idx.first (numel1_S1.symm ▸ Nat.one_pos)))) S1x1024.size (k0_off2_inb _ k0_hw1)))
          x3
          (View.ld x4 (Rect.unit (s := S32x1024) (k0_off2 (tbM0_0.view.readAt (Elt F) (Rect.unit (s := S64) (k0_off1 i) S1.size (k0_off1_inb i)).toLoadRect xt0 (Shape.Idx.first (numel1_S1.symm ▸ Nat.one_pos)))) S1x1024.size (k0_off2_inb _ k0_hw1))) := by
  unfold out0_A_5
  rw [View.read_writes_eq_canon _ _ _ (cover0_A_5 c _ _ _ _ _ _ _ _ _ _ _ _ _ _ _ _ _ _ _ _)]
  unfold kernelRun0_A
  dsimp only
  sl_unfold_words
  rw [View.canon_unit_zero zeros3]
  simp only [View.readAt_eq_ld, Memref.IsWhole.read_unread, View.ld_unit_zero (S := S1x512x1536) zeros3,
    View.ld_unit_zero (S := S1x1536x1024) zeros3, View.ld_unit_zero (S := S1x1024x1024) zeros3]

end AnyInstance

/-- Entry (u, r, n) of that block, at the exact values: the perceptron on row `r` of the activations block with the
    loaded matrices and the two loaded bias rows. -/
theorem stored_entry (c : Dev nD) (i : grid0.Coords) (arg3 : Memref sig .tc .vmem S1x512x1536 .f32) (harg3 : arg3.IsWhole) (arg4 : Memref sig .tc .vmem S1x1536x1024 .f32) (harg4 : arg4.IsWhole) (arg5 : Memref sig .tc .vmem S32x1024 .f32) (harg5 : arg5.IsWhole) (arg6 : Memref sig .tc .vmem S1x1024x1024 .f32) (harg6 : arg6.IsWhole) (arg7 : Memref sig .tc .vmem S32x1024 .f32) (harg7 : arg7.IsWhole) (arg8 : Memref sig .tc .vmem S1x512x1024 .f32) (harg8 : arg8.IsWhole)
    (x0 : Vec Ideal S1x512x1536 .f32) (x1 : Vec Ideal S1x1536x1024 .f32) (x2 : Vec Ideal S32x1024 .f32) (x3 : Vec Ideal S1x1024x1024 .f32) (x4 : Vec Ideal S32x1024 .f32) (xt0 : TbBuf0 (F := Ideal) c tbM0_0) (k0_hw1 : k0_chk1 (tbM0_0.view.readAt (Elt Ideal) (Rect.unit (s := S64) (k0_off1 i) S1.size (k0_off1_inb i)).toLoadRect xt0 (Shape.Idx.first (numel1_S1.symm ▸ Nat.one_pos))))
    (u : Fin 1) (r : Fin 512) (n : Fin 1024) :
    out0_A_5 c i arg3 harg3 arg4 harg4 arg5 harg5 arg6 harg6 arg7 harg7 arg8 harg8 x0 x1 x2 x3 x4 xt0 k0_hw1 (ix3 u r n)
      = perceptron (fun d => x0 (ix3 (0 : Fin 1) r d)) (fun d k => x1 (ix3 (0 : Fin 1) d k))
          (fun k => View.ld x2 (Rect.unit (s := S32x1024) (k0_off2 (tbM0_0.view.readAt (Elt Ideal) (Rect.unit (s := S64) (k0_off1 i) S1.size (k0_off1_inb i)).toLoadRect xt0 (Shape.Idx.first (numel1_S1.symm ▸ Nat.one_pos)))) S1x1024.size (k0_off2_inb _ k0_hw1)) (ix2 (0 : Fin 1) k))
          (fun k q => x3 (ix3 (0 : Fin 1) k q))
          (fun q => View.ld x4 (Rect.unit (s := S32x1024) (k0_off2 (tbM0_0.view.readAt (Elt Ideal) (Rect.unit (s := S64) (k0_off1 i) S1.size (k0_off1_inb i)).toLoadRect xt0 (Shape.Idx.first (numel1_S1.symm ▸ Nat.one_pos)))) S1x1024.size (k0_off2_inb _ k0_hw1)) (ix2 (0 : Fin 1) q)) n := by
  rw [stored_block]
  exact stored_apply _ _ _ _ _ u r n

/-! ## The arrays, and the blocks the pipeline hands the body at a grid point -/

variable (m : (ℓ : Loc nD τ sig) → Buf (Elt Ideal) ℓ) (ρ : Dev nD → PrngReg)

/-- The activations, the two weight arrays and the two bias tables, as the region finds them on core `c`; the category
    words as the region reads them. -/
abbrev xs (c : Dev nD) : FVec Ideal SX .f32 := V m c main_arg0
abbrev w1s (c : Dev nD) : FVec Ideal SW1 .f32 := V m c main_arg2
abbrev c1s (c : Dev nD) : FVec Ideal SBias .f32 := V m c main_arg3
abbrev w2s (c : Dev nD) : FVec Ideal SW2 .f32 := V m c main_arg4
abbrev c2s (c : Dev nD) : FVec Ideal SBias .f32 := V m c main_arg5
abbrev cats : IVec SIds 32 := tbl m 0

/-- The five input blocks at point `t`, each at its literal shape. -/
abbrev xblk (hO : Ok m) (c : Dev nD) (t : Fin (cfgM m hO).N) : Vec Ideal S1x512x1536 .f32 := iblk m hO c 0 t
abbrev w1blk (hO : Ok m) (c : Dev nD) (t : Fin (cfgM m hO).N) : Vec Ideal S1x1536x1024 .f32 := iblk m hO c 1 t
abbrev c1blk (hO : Ok m) (c : Dev nD) (t : Fin (cfgM m hO).N) : Vec Ideal S32x1024 .f32 := iblk m hO c 2 t
abbrev w2blk (hO : Ok m) (c : Dev nD) (t : Fin (cfgM m hO).N) : Vec Ideal S1x1024x1024 .f32 := iblk m hO c 3 t
abbrev c2blk (hO : Ok m) (c : Dev nD) (t : Fin (cfgM m hO).N) : Vec Ideal S32x1024 .f32 := iblk m hO c 4 t

/-- A small number survives the round trip through a 32-bit word. -/
theorem ofNat_toNat_small (n : Nat) (h : n < 2 ^ 32) : (BitVec.ofNat 32 n).toNat = n := by
  rw [BitVec.toNat_ofNat]; exact Nat.mod_eq_of_lt h

/-- The activation and result windows sit at block (sample, half, 0). -/
theorem act_index (i : grid0.Coords) :
    cc0_transform_0 i 0 = (i 0).val ∧ cc0_transform_0 i 1 = (i 1).val ∧ cc0_transform_0 i 2 = 0 := by
  have h0 : (i 0).val < 64 := (i 0).isLt
  have h1 : (i 1).val < 2 := (i 1).isLt
  exact ⟨ofNat_toNat_small _ (by omega), ofNat_toNat_small _ (by omega), rfl⟩
theorem res_index (i : grid0.Coords) :
    cc0_transform_5 i 0 = (i 0).val ∧ cc0_transform_5 i 1 = (i 1).val ∧ cc0_transform_5 i 2 = 0 := by
  have h0 : (i 0).val < 64 := (i 0).isLt
  have h1 : (i 1).val < 2 := (i 1).isLt
  exact ⟨ofNat_toNat_small _ (by omega), ofNat_toNat_small _ (by omega), rfl⟩

/-- The weight windows sit at block (the sample's category word, 0, 0). -/
theorem w1_index (i : grid0.Coords) :
    cc0_transform_1 k0_off1_inb numel1_S1 (tbl m) i 0 = (word m (i 0)).toNat
      ∧ cc0_transform_1 k0_off1_inb numel1_S1 (tbl m) i 1 = 0 ∧ cc0_transform_1 k0_off1_inb numel1_S1 (tbl m) i 2 = 0 :=
  ⟨congrArg BitVec.toNat (map_word m i), rfl, rfl⟩
theorem w2_index (i : grid0.Coords) :
    cc0_transform_3 k0_off1_inb numel1_S1 (tbl m) i 0 = (word m (i 0)).toNat
      ∧ cc0_transform_3 k0_off1_inb numel1_S1 (tbl m) i 1 = 0 ∧ cc0_transform_3 k0_off1_inb numel1_S1 (tbl m) i 2 = 0 :=
  ⟨congrArg BitVec.toNat (map_word m i), rfl, rfl⟩

/-- Entry `y` of the activations block is the array at (sample, 512 · half + y 1, y 2). -/
theorem x_block (hO : Ok m) (c : Dev nD) (t : Fin (cfgM m hO).N) (y : S1x512x1536.Idx) (j : SX.Idx)
    (h0 : (j 0).val = (grid0.coords t 0).val) (h1 : (j 1).val = 512 * (grid0.coords t 1).val + (y 1).val)
    (h2 : (j 2).val = (y 2).val) : xblk m hO c t y = xs m c j := by
  obtain ⟨e0, e1, e2⟩ := act_index (grid0.coords t)
  have hy : (y 0).val < 1 := (y 0).isLt
  show V m c main_arg0 ((((cfgM m hO).win 0).blk t).view.emb y) = V m c main_arg0 j
  refine congrArg (V m c main_arg0) (funext fun a => Fin.ext ?_)
  match a with
  | ⟨0, _⟩ => show cc0_transform_0 (grid0.coords t) 0 * 1 + 1 * (y 0).val = (j 0).val; omega
  | ⟨1, _⟩ => show cc0_transform_0 (grid0.coords t) 1 * 512 + 1 * (y 1).val = (j 1).val; omega
  | ⟨2, _⟩ => show cc0_transform_0 (grid0.coords t) 2 * 1536 + 1 * (y 2).val = (j 2).val; omega

/-- Entry `y` of the first weight block is the array at (the sample's word, y 1, y 2). -/
theorem w1_block (hO : Ok m) (c : Dev nD) (t : Fin (cfgM m hO).N) (y : S1x1536x1024.Idx) (j : SW1.Idx)
    (h0 : (j 0).val = (word m (grid0.coords t 0)).toNat) (h1 : (j 1).val = (y 1).val) (h2 : (j 2).val = (y 2).val) :
    w1blk m hO c t y = w1s m c j := by
  obtain ⟨e0, e1, e2⟩ := w1_index m (grid0.coords t)
  have hy : (y 0).val < 1 := (y 0).isLt
  show V m c main_arg2 ((((cfgM m hO).win 1).blk t).view.emb y) = V m c main_arg2 j
  refine congrArg (V m c main_arg2) (funext fun a => Fin.ext ?_)
  match a with
  | ⟨0, _⟩ => show cc0_transform_1 k0_off1_inb numel1_S1 (tbl m) (grid0.coords t) 0 * 1 + 1 * (y 0).val = (j 0).val; omega
  | ⟨1, _⟩ => show cc0_transform_1 k0_off1_inb numel1_S1 (tbl m) (grid0.coords t) 1 * 1536 + 1 * (y 1).val = (j 1).val; omega
  | ⟨2, _⟩ => show cc0_transform_1 k0_off1_inb numel1_S1 (tbl m) (grid0.coords t) 2 * 1024 + 1 * (y 2).val = (j 2).val; omega

/-- Entry `y` of the second weight block is the array at (the sample's word, y 1, y 2). -/
theorem w2_block (hO : Ok m) (c : Dev nD) (t : Fin (cfgM m hO).N) (y : S1x1024x1024.Idx) (j : SW2.Idx)
    (h0 : (j 0).val = (word m (grid0.coords t 0)).toNat) (h1 : (j 1).val = (y 1).val) (h2 : (j 2).val = (y 2).val) :
    w2blk m hO c t y = w2s m c j := by
  obtain ⟨e0, e1, e2⟩ := w2_index m (grid0.coords t)
  have hy : (y 0).val < 1 := (y 0).isLt
  show V m c main_arg4 ((((cfgM m hO).win 3).blk t).view.emb y) = V m c main_arg4 j
  refine congrArg (V m c main_arg4) (funext fun a => Fin.ext ?_)
  match a with
  | ⟨0, _⟩ => show cc0_transform_3 k0_off1_inb numel1_S1 (tbl m) (grid0.coords t) 0 * 1 + 1 * (y 0).val = (j 0).val; omega
  | ⟨1, _⟩ => show cc0_transform_3 k0_off1_inb numel1_S1 (tbl m) (grid0.coords t) 1 * 1024 + 1 * (y 1).val = (j 1).val; omega
  | ⟨2, _⟩ => show cc0_transform_3 k0_off1_inb numel1_S1 (tbl m) (grid0.coords t) 2 * 1024 + 1 * (y 2).val = (j 2).val; omega

/-- The one row the body loads from the first bias table, at the row a word `w` names, is row `w` of the table: the
    table's block is the whole table. -/
theorem c1_row (hO : Ok m) (c : Dev nD) (t : Fin (cfgM m hO).N) (w : BitVec 32)
    (inb : ∀ a, (k0_off2 w) a + S1x1024.size a ≤ S32x1024.size a) (k : Fin 1024) (e : Fin 32) (he : e.val = w.toNat) :
    View.ld (c1blk m hO c t) (Rect.unit (s := S32x1024) (k0_off2 w) S1x1024.size inb) (ix2 (0 : Fin 1) k) = c1s m c (ix2 e k) := by
  show V m c main_arg3 ((((cfgM m hO).win 2).blk t).view.emb ((Rect.unit (s := S32x1024) (k0_off2 w) S1x1024.size inb).emb (ix2 (0 : Fin 1) k)))
      = V m c main_arg3 (ix2 e k)
  refine congrArg (V m c main_arg3) (funext fun a => Fin.ext ?_)
  match a with
  | ⟨0, _⟩ => show 0 * 32 + 1 * (w.toNat + 1 * 0) = e.val; omega
  | ⟨1, _⟩ => show 0 * 1024 + 1 * (0 + 1 * k.val) = k.val; omega
theorem c2_row (hO : Ok m) (c : Dev nD) (t : Fin (cfgM m hO).N) (w : BitVec 32)
    (inb : ∀ a, (k0_off2 w) a + S1x1024.size a ≤ S32x1024.size a) (k : Fin 1024) (e : Fin 32) (he : e.val = w.toNat) :
    View.ld (c2blk m hO c t) (Rect.unit (s := S32x1024) (k0_off2 w) S1x1024.size inb) (ix2 (0 : Fin 1) k) = c2s m c (ix2 e k) := by
  show V m c main_arg5 ((((cfgM m hO).win 4).blk t).view.emb ((Rect.unit (s := S32x1024) (k0_off2 w) S1x1024.size inb).emb (ix2 (0 : Fin 1) k)))
      = V m c main_arg5 (ix2 e k)
  refine congrArg (V m c main_arg5) (funext fun a => Fin.ext ?_)
  match a with
  | ⟨0, _⟩ => show 0 * 32 + 1 * (w.toNat + 1 * 0) = e.val; omega
  | ⟨1, _⟩ => show 0 * 1024 + 1 * (0 + 1 * k.val) = k.val; omega

/-! ## The output block at a grid point -/

/-- THE VALUE: the routed perceptron of the six argument arrays. -/
abbrev val (c : Dev nD) : FVec Ideal SOut .f32 := result (xs m c) (cats m) (w1s m c) (c1s m c) (w2s m c) (c2s m c)

/-- The value at (b, s, n), spelt out: the perceptron on row `s` of sample `b` with the slices of the parameter
    arrays at the sample's expert. -/
theorem val_apply (c : Dev nD) (b : Fin 64) (s : Fin 1024) (n : Fin 1024) :
    val m c (ix3 b s n) = perceptron (fun d => xs m c (ix3 b s d)) (fun d k => w1s m c (ix3 (expert (cats m) b) d k))
      (fun k => c1s m c (ix2 (expert (cats m) b) k)) (fun k q => w2s m c (ix3 (expert (cats m) b) k q))
      (fun q => c2s m c (ix2 (expert (cats m) b) q)) n := rfl

section FromPre
variable [hPre : Cert.Pre_finite_inputs.Facts]

/-- Entry `y` of the block the body leaves at point `t` is the value at (sample, 512 · half + y 1, y 2). -/
theorem outs_apply (h : PreAt m) (hO : Ok m) (hH : Hyps m hO) (c : Dev nD) (t : Fin (cfgM m hO).N) (y : S1x512x1024.Idx) (j : SOut.Idx)
    (h0 : (j 0).val = (grid0.coords t 0).val) (h1 : (j 1).val = 512 * (grid0.coords t 1).val + (y 1).val)
    (h2 : (j 2).val = (y 2).val) : outsAt0 m hO hH c t y = val m c j := by
  obtain ⟨u, r, n, rfl⟩ : ∃ (u : Fin 1) (r : Fin 512) (n : Fin 1024), y = ix3 u r n := ⟨y 0, y 1, y 2, eq_ix3 y⟩
  obtain ⟨b, s, n', rfl⟩ : ∃ (b : Fin 64) (s : Fin 1024) (n' : Fin 1024), j = ix3 b s n' := ⟨j 0, j 1, j 2, eq_ix3 j⟩
  obtain rfl : n = n' := Fin.ext h2.symm
  obtain rfl : b = grid0.coords t 0 := Fin.ext h0
  have h1' : s.val = 512 * (grid0.coords t 1).val + r.val := h1
  -- the word the body read is the sample's, and it is the sample's expert
  have hw := body_word m (grid0.coords t) (numel1_S1.symm ▸ Nat.one_pos)
  have he : (expert (cats m) (grid0.coords t 0)).val
      = (tbM0_0.view.readAt (Elt Ideal) (Rect.unit (s := S64) (k0_off1 (grid0.coords t)) S1.size (k0_off1_inb (grid0.coords t))).toLoadRect (tbl m 0) (Shape.Idx.first (numel1_S1.symm ▸ Nat.one_pos))).toNat :=
    (expert_val (cats m) (grid0.coords t 0) (word_lt m h _)).trans (congrArg BitVec.toNat hw.symm)
  have he' : (expert (cats m) (grid0.coords t 0)).val = (word m (grid0.coords t 0)).toNat :=
    expert_val (cats m) (grid0.coords t 0) (word_lt m h _)
  unfold outsAt0
  refine (stored_entry c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t)
    (xblk m hO c t) (w1blk m hO c t) (c1blk m hO c t) (w2blk m hO c t) (c2blk m hO c t) (tbl m 0) (Hyps.c0 hH c t) u r n).trans ?_
  refine Eq.trans ?_ (val_apply m c (grid0.coords t 0) s n).symm
  refine congrFun (congr (congr (congr (congr (congrArg perceptron ?_) ?_) ?_) ?_) ?_) n
  · funext d; exact x_block m hO c t _ _ rfl h1' rfl
  · funext d k; exact w1_block m hO c t _ _ he' rfl rfl
  · funext k; exact c1_row m hO c t _ _ k _ he
  · funext k q; exact w2_block m hO c t _ _ he' rfl rfl
  · funext q; exact c2_row m hO c t _ _ q _ he

/-! ## From blocks to the array -/

/-- WHAT POINT `t` WRITES BACK is block `t` of the value. -/
theorem flushed_eq (h : PreAt m) (hO : Ok m) (hH : Hyps m hO) (c : Dev nD) (t : Fin (cfgM m hO).N) :
    (dats m hO hH 0 c).flushed 5 t = (((cfgM m hO).win 5).blk t).view.read (Elt Ideal) (val m c) := by
  show ((cfgM m hO).win 5).cut ((cfgM m hO).grid.coords t) ((dats m hO hH 0 c).after 5 t) = _
  rw [after0_5]
  refine funext fun (y : S1x512x1024.Idx) => ?_
  obtain ⟨e0, e1, e2⟩ := res_index (grid0.coords t)
  have hy : (y 0).val < 1 := (y 0).isLt
  show outsAt0 m hO hH c t y = val m c ((((cfgM m hO).win 5).blk t).view.emb y)
  refine outs_apply m h hO hH c t y _ ?_ ?_ ?_
  · show cc0_transform_5 (grid0.coords t) 0 * 1 + 1 * (y 0).val = (grid0.coords t 0).val; omega
  · show cc0_transform_5 (grid0.coords t) 1 * 512 + 1 * (y 1).val = 512 * (grid0.coords t 1).val + (y 1).val; omega
  · show cc0_transform_5 (grid0.coords t) 2 * 1024 + 1 * (y 2).val = (y 2).val; omega

end FromPre

/-- Every (sample, half) is some grid point's. -/
theorem point_onto : ∀ (q0 : Fin 64) (q1 : Fin 2), ∃ t : Fin grid0.N, (grid0.coords t 0).val = q0.val ∧ (grid0.coords t 1).val = q1.val := by
  decide +kernel

/-- An index of the result is in point `t`'s block iff each coordinate is in the block's range on its axis. -/
theorem mem_blk (hO : Ok m) (t : Fin (cfgM m hO).N) (i : SOut.Idx) :
    i ∈ (((cfgM m hO).win 5).blk t).view.set ↔ ∀ a : Fin 3, cc0_transform_5 (grid0.coords t) a * S1x512x1024.size a ≤ (i a).val
      ∧ (i a).val < cc0_transform_5 (grid0.coords t) a * S1x512x1024.size a + S1x512x1024.size a := by
  have e : (((cfgM m hO).win 5).blk t).view.set = (((cfgM m hO).win 5).rect t).set :=
    View.set_slice_whole main_v0 (((cfgM m hO).win 5).rect t)
  exact (Eq.to_iff (congrArg (fun S => i ∈ S) e)).trans Rect.mem_set_unit

/-- The blocks cover the result: index (b, s, n) lies in the block of point (b, s / 512). -/
theorem cover (hO : Ok m) (i : SOut.Idx) :
    ∃ t : Fin (cfgM m hO).N, ((cfgM m hO).win 5).flush t = true ∧ i ∈ (((cfgM m hO).win 5).blk t).view.set := by
  have hi0 : (i 0).val < 64 := (i 0).isLt
  have hi1 : (i 1).val < 1024 := (i 1).isLt
  have hi2 : (i 2).val < 1024 := (i 2).isLt
  obtain ⟨t, ht0, ht1⟩ := point_onto ⟨(i 0).val, hi0⟩ ⟨(i 1).val / 512, by omega⟩
  have ht0' : (grid0.coords t 0).val = (i 0).val := ht0
  have ht1' : (grid0.coords t 1).val = (i 1).val / 512 := ht1
  obtain ⟨e0, e1, e2⟩ := res_index (grid0.coords t)
  refine ⟨t, flush0_5 (adm m hO) t, ?_⟩
  rw [mem_blk]
  intro a
  match a with
  | ⟨0, _⟩ => show cc0_transform_5 (grid0.coords t) 0 * 1 ≤ (i 0).val ∧ (i 0).val < cc0_transform_5 (grid0.coords t) 0 * 1 + 1; omega
  | ⟨1, _⟩ => show cc0_transform_5 (grid0.coords t) 1 * 512 ≤ (i 1).val ∧ (i 1).val < cc0_transform_5 (grid0.coords t) 1 * 512 + 512; omega
  | ⟨2, _⟩ => show cc0_transform_5 (grid0.coords t) 2 * 1024 ≤ (i 2).val ∧ (i 2).val < cc0_transform_5 (grid0.coords t) 2 * 1024 + 1024; omega

section FromPre
variable [hPre : Cert.Pre_finite_inputs.Facts]

/-- THE RESULT ARRAY after the run holds the value. -/
theorem final (h : PreAt m) (hO : Ok m) (hH : Hyps m hO) (c : Dev nD) :
    (dats m hO hH 0 c).arrAt 5 (cfgM m hO).N = val m c :=
  (dats m hO hH 0 c).arrAt_eq_of_cover 5 (val m c) (fun t _ => flushed_eq m h hO hH c t) (cover m hO)

/-- The value, over the launch memory's own arrays on core `c` (there is one core: the category table read on core 0
    is core `c`'s). -/
theorem val_eq (c : Dev nD) :
    val m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  obtain rfl : c = 0 := Subsingleton.elim _ _
  rfl

/-- THE KERNEL'S RUN, its result named: under the precondition every weakly fair execution terminates with the result
    array at the routed perceptron of the six argument arrays, and the arguments unchanged. -/
theorem run (h : PreAt m) :
    θ_run defs (onTc (τ := τ) (main (F := Ideal))) ⟨m, fun _ => 0, ρ⟩ fun r => ∀ c : Dev nD,
      r.2.mem ((c.tc : Thread nD τ).loc main_v0) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have hO := ok_of_pre m h
  have hH := hyps_of_pre m h hO
  refine (θ_run defs _ _).mono (fun r hq c => ?_) (run_main m ρ hO hH)
  exact ⟨(((hq c).1 5).trans (final m h hO hH c)).trans (val_eq m c),
    ((hq c).1 0).trans (((dats m hO hH 0 c).arrAt_in 0 rfl _).trans ((A_eq m hO hH c 0).trans (V_main_arg0 m c))),
    ((hq c).2 main_arg1 (by decide : main_arg1 ∈ Pipeline.restRefs sig spec0)).trans (V_main_arg1 m c),
    ((hq c).1 1).trans (((dats m hO hH 0 c).arrAt_in 1 rfl _).trans ((A_eq m hO hH c 1).trans (V_main_arg2 m c))),
    ((hq c).1 2).trans (((dats m hO hH 0 c).arrAt_in 2 rfl _).trans ((A_eq m hO hH c 2).trans (V_main_arg3 m c))),
    ((hq c).1 3).trans (((dats m hO hH 0 c).arrAt_in 3 rfl _).trans ((A_eq m hO hH c 3).trans (V_main_arg4 m c))),
    ((hq c).1 4).trans (((dats m hO hH 0 c).arrAt_in 4 rfl _).trans ((A_eq m hO hH c 4).trans (V_main_arg5 m c)))⟩

end FromPre

end Cert.KernelIdeal.Blocks

end
-- ==== Proof.RefValue.lean ====
/-
  The reference's result, index by index.

  jnp's `W[cat_ids]` first wraps a negative index (adds 32 where the word is negative), then gathers: the slice of
  the table that starts at the word read signed and clamped into 0 … 31.  For a word already in 0 … 31 the wrap is
  not taken and the clamp changes nothing, so sample `b`'s gathered matrix (or bias row) is the table's slice at the
  sample's category word — the expert of Proof/Spec.lean.  The two batched contractions are then, entry by entry,
  the sums over the inner coordinate of the sample's row against its own gathered matrix, the bias rows are laid
  under every row of the sample, and `relu` is the maximum with zero: the perceptron of Proof/Spec.lean, routed.
-/
import proofs.«425779_j14078902796564_1_alg».proof.Defs
import proofs.«425779_j14078902796564_1_alg».proof.Proof.Gen.ReferenceIdeal.Run
import proofs.«425779_j14078902796564_1_alg».proof.Proof.Gen.ReferenceIdeal.Read
import proofs.«425779_j14078902796564_1_alg».proof.Proof.Spec
import Idealize.ShloMosaic.Lib.ValueIdx
import Idealize.ShloMosaic.Lib.StableHlo.Predicate

noncomputable section

namespace Cert.ReferenceIdeal.Routed

open Cert.ReferenceIdeal Cert.ReferenceIdeal.Gen Cert.ReferenceIdeal.Read Cert.ExpertMlp
open Idealize.ShloMosaic Idealize.ShloMosaic.ValueIdx

/-! ## A category word in range: no wrap, no clamp -/

/-- A word that is signed-nonnegative is not signed-below zero, -/
theorem not_slt_zero (w : BitVec 32) (h0 : IntOp.cmpi .sge w 0#32 = 1#1) : ¬ (IntOp.cmpi .slt w 0#32 = 1) := by
  intro h'
  have h'' : BitVec.ofBool (w.slt 0#32) = 1#1 := h'
  unfold IntOp.cmpi at h0
  rw [StableHlo.Predicate.ofBool_eq_one_iff] at h0 h''
  simp only [BitVec.slt, BitVec.sle, decide_eq_true_eq] at h0 h''
  omega
/-- and its signed value, as a natural number, is its unsigned one. -/
theorem toInt_toNat (w : BitVec 32) (h0 : IntOp.cmpi .sge w 0#32 = 1#1) : w.toInt.toNat = w.toNat := by
  unfold IntOp.cmpi at h0
  rw [StableHlo.Predicate.ofBool_eq_one_iff] at h0
  simp only [BitVec.sle, decide_eq_true_eq] at h0
  have hz : (0#32 : BitVec 32).toInt = 0 := by decide
  have h32 := w.isLt
  rw [hz, BitVec.toInt_eq_toNat_cond] at h0
  rw [BitVec.toInt_eq_toNat_cond]
  by_cases hc : 2 * w.toNat < 2 ^ 32
  · rw [if_pos hc]; exact Int.toNat_natCast _
  · rw [if_neg hc] at h0; omega

/-- The [64, 1] column of start indices at (b, 0) is over the vector's index b. -/
def col (b : Fin 64) : S64x1.Idx := ix2 b (0 : Fin 1)

section AnyInstance
variable {F : FTy → Type} [FloatOps F]

/-- The four copies of the wrapped index vector, as a column, read at (b, 0), are the word when it is nonnegative. -/
theorem start_v5 (x1 : IVec S64 32) (b : Fin 64) (h0 : IntOp.cmpi .sge (x1 (ix1 b)) 0#32 = 1#1) :
    val_main_v5 (F := F) x1 (col b) = x1 (ix1 b) := by
  have e : idx_main_v5 (col b) = ix1 b := funext fun a => by match a with | ⟨0, _⟩ => rfl
  rw [val_main_v5_apply, e, val_main_v4_apply, val_main_v1_apply, val_main_v0_apply, val_main_c_apply]
  exact if_neg (not_slt_zero _ h0)

/-- A gather of whole [1, 1536, 1024] slices along the leading axis reads, at (b, d, k), the table at (the start
    word of row b, read signed and clamped into 0 … 31; d; k). -/
theorem gather_w1 {α : Type} (x : S32x1536x1024.Idx → α) (idx : IVec S64x1 32) (b : Fin 64) (d : Fin 1536) (k : Fin 1024) :
    Host.gather gather_S32x1536x1024_S64x1_S64x1536x1024_12_0_n_n_0_1_115361024 x idx (ix3 b d k)
      = x (ix3 (⟨min (idx (col b)).toInt.toNat 31, Nat.lt_succ_of_le (Nat.min_le_right _ _)⟩ : Fin 32) d k) := by
  unfold Host.gather
  congr 1
  funext a
  apply Fin.ext
  fin_cases a <;>
    simp [GatherDims.operandIdx, GatherDims.start, GatherDims.offCoord, GatherDims.batchCoord,
      gather_S32x1536x1024_S64x1_S64x1536x1024_12_0_n_n_0_1_115361024, GatherDims.sKept, Shape.kept, col]
  · refine congrArg (fun w : BitVec 32 => min w.toInt.toNat 31) (congrArg idx (funext fun a => ?_))
    match a with
    | ⟨0, _⟩ => rfl
    | ⟨1, _⟩ => rfl
  · rfl
  · rfl

/-- The same for whole [1, 1024, 1024] slices. -/
theorem gather_w2 {α : Type} (x : S32x1024x1024.Idx → α) (idx : IVec S64x1 32) (b : Fin 64) (d : Fin 1024) (k : Fin 1024) :
    Host.gather gather_S32x1024x1024_S64x1_S64x1024x1024_12_0_n_n_0_1_110241024 x idx (ix3 b d k)
      = x (ix3 (⟨min (idx (col b)).toInt.toNat 31, Nat.lt_succ_of_le (Nat.min_le_right _ _)⟩ : Fin 32) d k) := by
  unfold Host.gather
  congr 1
  funext a
  apply Fin.ext
  fin_cases a <;>
    simp [GatherDims.operandIdx, GatherDims.start, GatherDims.offCoord, GatherDims.batchCoord,
      gather_S32x1024x1024_S64x1_S64x1024x1024_12_0_n_n_0_1_110241024, GatherDims.sKept, Shape.kept, col]
  · refine congrArg (fun w : BitVec 32 => min w.toInt.toNat 31) (congrArg idx (funext fun a => ?_))
    match a with
    | ⟨0, _⟩ => rfl
    | ⟨1, _⟩ => rfl
  · rfl
  · rfl

/-- A gather of whole [1, 1024] rows of a bias table reads, at (b, k), the table at (the clamped start word of row b, k). -/
theorem gather_row {α : Type} (x : S32x1024.Idx → α) (idx : IVec S64x1 32) (b : Fin 64) (k : Fin 1024) :
    Host.gather gather_S32x1024_S64x1_S64x1024_1_0_n_n_0_1_11024 x idx (ix2 b k)
      = x (ix2 (⟨min (idx (col b)).toInt.toNat 31, Nat.lt_succ_of_le (Nat.min_le_right _ _)⟩ : Fin 32) k) := by
  unfold Host.gather
  congr 1
  funext a
  apply Fin.ext
  fin_cases a <;>
    simp [GatherDims.operandIdx, GatherDims.start, GatherDims.offCoord, GatherDims.batchCoord,
      gather_S32x1024_S64x1_S64x1024_1_0_n_n_0_1_11024, GatherDims.sKept, Shape.kept, col]
  · refine congrArg (fun w : BitVec 32 => min w.toInt.toNat 31) (congrArg idx (funext fun a => ?_))
    match a with
    | ⟨0, _⟩ => rfl
    | ⟨1, _⟩ => rfl
  · rfl

/-- The other three copies of the wrapped index column. -/
theorem start_v13 (x1 : IVec S64 32) (b : Fin 64) (h0 : IntOp.cmpi .sge (x1 (ix1 b)) 0#32 = 1#1) :
    val_main_v13 (F := F) x1 (col b) = x1 (ix1 b) := by
  have e : idx_main_v13 (col b) = ix1 b := funext fun a => by match a with | ⟨0, _⟩ => rfl
  rw [val_main_v13_apply, e, val_main_v12_apply, val_main_v9_apply, val_main_v8_apply, val_main_c_1_apply]
  exact if_neg (not_slt_zero _ h0)
theorem start_v24 (x1 : IVec S64 32) (b : Fin 64) (h0 : IntOp.cmpi .sge (x1 (ix1 b)) 0#32 = 1#1) :
    val_main_v24 (F := F) x1 (col b) = x1 (ix1 b) := by
  have e : idx_main_v24 (col b) = ix1 b := funext fun a => by match a with | ⟨0, _⟩ => rfl
  rw [val_main_v24_apply, e, val_main_v23_apply, val_main_v20_apply, val_main_v19_apply, val_main_c_3_apply]
  exact if_neg (not_slt_zero _ h0)
theorem start_v32 (x1 : IVec S64 32) (b : Fin 64) (h0 : IntOp.cmpi .sge (x1 (ix1 b)) 0#32 = 1#1) :
    val_main_v32 (F := F) x1 (col b) = x1 (ix1 b) := by
  have e : idx_main_v32 (col b) = ix1 b := funext fun a => by match a with | ⟨0, _⟩ => rfl
  rw [val_main_v32_apply, e, val_main_v31_apply, val_main_v28_apply, val_main_v27_apply, val_main_c_5_apply]
  exact if_neg (not_slt_zero _ h0)

/-- A nonnegative word, read signed and clamped into 0 … 31, is the sample's expert. -/
theorem clamp_expert (x1 : IVec S64 32) (b : Fin 64) (w : BitVec 32) (hw : w = x1 (ix1 b))
    (h0 : IntOp.cmpi .sge (x1 (ix1 b)) 0#32 = 1#1) :
    (⟨min w.toInt.toNat 31, Nat.lt_succ_of_le (Nat.min_le_right _ _)⟩ : Fin 32) = expert x1 b := by
  subst hw
  exact Fin.ext (by show min _ 31 = min _ 31; rw [toInt_toNat _ h0])

/-! ## The gathered parameters of sample `b` are its expert's -/

theorem w1_gathered (x1 : IVec S64 32) (x2 : FVec F S32x1536x1024 .f32) (b : Fin 64) (d : Fin 1536) (k : Fin 1024)
    (h0 : IntOp.cmpi .sge (x1 (ix1 b)) 0#32 = 1#1) :
    val_main_v6 (F := F) x1 x2 (ix3 b d k) = x2 (ix3 (expert x1 b) d k) :=
  (gather_w1 x2 _ b d k).trans (congrArg (fun e => x2 (ix3 e d k)) (clamp_expert x1 b _ (start_v5 x1 b h0) h0))

theorem w2_gathered (x1 : IVec S64 32) (x4 : FVec F S32x1024x1024 .f32) (b : Fin 64) (d : Fin 1024) (k : Fin 1024)
    (h0 : IntOp.cmpi .sge (x1 (ix1 b)) 0#32 = 1#1) :
    val_main_v25 (F := F) x1 x4 (ix3 b d k) = x4 (ix3 (expert x1 b) d k) :=
  (gather_w2 x4 _ b d k).trans (congrArg (fun e => x4 (ix3 e d k)) (clamp_expert x1 b _ (start_v24 x1 b h0) h0))

/-- The first bias, gathered and laid under every row of the sample, reads at (b, t, k) the expert's row at k. -/
theorem c1_gathered (x1 : IVec S64 32) (x3 : FVec F S32x1024 .f32) (b : Fin 64) (t : Fin 1024) (k : Fin 1024)
    (h0 : IntOp.cmpi .sge (x1 (ix1 b)) 0#32 = 1#1) :
    val_main_v16 (F := F) x1 x3 (ix3 b t k) = x3 (ix2 (expert x1 b) k) := by
  have e : idx_main_v15 (idx_main_v16 (ix3 b t k)) = ix2 b k :=
    funext fun a => by match a with | ⟨0, _⟩ => rfl | ⟨1, _⟩ => rfl
  rw [val_main_v16_apply, val_main_v15_apply, e]
  exact (gather_row x3 _ b k).trans (congrArg (fun e => x3 (ix2 e k)) (clamp_expert x1 b _ (start_v13 x1 b h0) h0))

theorem c2_gathered (x1 : IVec S64 32) (x5 : FVec F S32x1024 .f32) (b : Fin 64) (t : Fin 1024) (k : Fin 1024)
    (h0 : IntOp.cmpi .sge (x1 (ix1 b)) 0#32 = 1#1) :
    val_main_v35 (F := F) x1 x5 (ix3 b t k) = x5 (ix2 (expert x1 b) k) := by
  have e : idx_main_v34 (idx_main_v35 (ix3 b t k)) = ix2 b k :=
    funext fun a => by match a with | ⟨0, _⟩ => rfl | ⟨1, _⟩ => rfl
  rw [val_main_v35_apply, val_main_v34_apply, e]
  exact (gather_row x5 _ b k).trans (congrArg (fun e => x5 (ix2 e k)) (clamp_expert x1 b _ (start_v32 x1 b h0) h0))

end AnyInstance

/-! ## The two layers -/

/-- The hidden activation at (b, t, h): the sum over the 1536 inner coordinates of the sample's row against its
    expert's first matrix, plus the expert's bias, then the positive part. -/
theorem hidden_eq (x0 : FVec Ideal S64x1024x1536 .f32) (x1 : IVec S64 32) (x2 : FVec Ideal S32x1536x1024 .f32)
    (x3 : FVec Ideal S32x1024 .f32) (b : Fin 64) (t : Fin 1024) (h : Fin 1024)
    (h0 : IntOp.cmpi .sge (x1 (ix1 b)) 0#32 = 1#1) :
    val_main_v18 (F := Ideal) x0 x1 x2 x3 (ix3 b t h)
      = max ((∑ d : Fin 1536, x0 (ix3 b t d) * x2 (ix3 (expert x1 b) d h)) + x3 (ix2 (expert x1 b) h))
          (Ideal.ofBits .f32 0x00000000#32) := by
  rw [val_main_v18_apply, val_main_v17_apply, val_main_v7_apply, c1_gathered x1 x3 b t h h0, val_main_call0_v0_apply,
    val_main_call0_cst_apply]
  show max ((∑ d : Fin 1536, x0 (lidx_main_v7 (ix3 b t h) d) * val_main_v6 (F := Ideal) x1 x2 (ridx_main_v7 (ix3 b t h) d)) + _) _ = _
  refine congrArg (fun s => max (s + x3 (ix2 (expert x1 b) h)) (Ideal.ofBits .f32 0x00000000#32)) (Finset.sum_congr rfl fun d _ => ?_)
  have el : lidx_main_v7 (ix3 b t h) d = ix3 b t d := funext fun a => by match a with | ⟨0, _⟩ => rfl | ⟨1, _⟩ => rfl | ⟨2, _⟩ => rfl
  have er : ridx_main_v7 (ix3 b t h) d = ix3 b d h := funext fun a => by match a with | ⟨0, _⟩ => rfl | ⟨1, _⟩ => rfl | ⟨2, _⟩ => rfl
  rw [el, er, w1_gathered x1 x2 b d h h0]

/-- THE REFERENCE'S RESULT is the routed perceptron of Proof/Spec.lean, when every category word is nonnegative
    (the precondition gives that, and the upper bound, which the clamp makes unnecessary here). -/
theorem result_eq (x0 : FVec Ideal S64x1024x1536 .f32) (x1 : IVec S64 32) (x2 : FVec Ideal S32x1536x1024 .f32)
    (x3 : FVec Ideal S32x1024 .f32) (x4 : FVec Ideal S32x1024x1024 .f32) (x5 : FVec Ideal S32x1024 .f32)
    (h0 : ∀ b : Fin 64, IntOp.cmpi .sge (x1 (ix1 b)) 0#32 = 1#1) :
    val_main_v36 (F := Ideal) x0 x1 x2 x3 x4 x5 = result x0 x1 x2 x3 x4 x5 := by
  funext i
  obtain ⟨b, t, n, rfl⟩ : ∃ (b : Fin 64) (t : Fin 1024) (n : Fin 1024), i = ix3 b t n := ⟨i 0, i 1, i 2, eq_ix3 i⟩
  rw [val_main_v36_apply, val_main_v26_apply, c2_gathered x1 x5 b t n (h0 b)]
  show (∑ k : Fin 1024, val_main_v18 (F := Ideal) x0 x1 x2 x3 (lidx_main_v26 (ix3 b t n) k) * val_main_v25 (F := Ideal) x1 x4 (ridx_main_v26 (ix3 b t n) k)) + _ = _
  refine congrArg (· + x5 (ix2 (expert x1 b) n)) (Finset.sum_congr rfl fun k _ => ?_)
  have el : lidx_main_v26 (ix3 b t n) k = ix3 b t k := funext fun a => by match a with | ⟨0, _⟩ => rfl | ⟨1, _⟩ => rfl | ⟨2, _⟩ => rfl
  have er : ridx_main_v26 (ix3 b t n) k = ix3 b k n := funext fun a => by match a with | ⟨0, _⟩ => rfl | ⟨1, _⟩ => rfl | ⟨2, _⟩ => rfl
  rw [el, er, hidden_eq x0 x1 x2 x3 b t k (h0 b), w2_gathered x1 x4 b k n (h0 b)]

end Cert.ReferenceIdeal.Routed

end
-- ==== Proof.lean ====
/-
  Sixty-four samples, each routed by a category word to one of 32 two-layer perceptrons:
  `out[b, t, :] = relu(x[b, t, :] · W1[c_b] + b1[c_b]) · W2[c_b] + b2[c_b]` with `c_b = cat_ids[b]`.

  The kernel runs one grid point per (sample, half of its 1024 rows): the category word, prefetched, is the block
  index of both weight windows and the row it loads from each bias table; the two matrix products narrow their
  operands to a shorter float format, which at the exact values changes nothing.  The reference gathers each
  sample's weights and biases (`W[cat_ids]`, which wraps negative indices and clamps) and contracts batch-wise.

  The precondition asks, beside finite float inputs, that every category word lie in [0, 32): the range of the axis
  all four tables are indexed along.  Under it
  * the kernel's frames hold: each weight block lies inside its array and each bias row inside its table
    (Proof/KernelHyps.lean and Proof/KernelIdealHyps.lean, from Proof/CatRange.lean), which is what the generated
    frames ask;
  * the reference's frame is its generated run with the result dropped;
  * nothing was rewritten by the idealization, so `preserves` is trivial;
  * both idealized programs end with the result array at `Cert.ExpertMlp.result` of the six argument arrays
    (Proof/Spec.lean): the kernel by Proof/KernelRow.lean (its stored block at an index) and Proof/KernelValue.lean
    (blocks to the array), the reference by Proof/RefValue.lean (the gathers read at the sample's word, the
    contractions as sums).  The two sums run over the same coordinates in the same arrangement, so no law of the
    extended reals beyond rewriting equal terms is used, and finiteness of the float inputs is not needed.
-/
import proofs.«425779_j14078902796564_1_alg».proof.Defs
import proofs.«425779_j14078902796564_1_alg».proof.Proof.Gen.Kernel
import proofs.«425779_j14078902796564_1_alg».proof.Proof.Gen.Kernel.Skeleton
import proofs.«425779_j14078902796564_1_alg».proof.Proof.Gen.Kernel.Launch
import proofs.«425779_j14078902796564_1_alg».proof.Proof.Gen.Kernel.Points
import proofs.«425779_j14078902796564_1_alg».proof.Proof.Gen.Kernel.Frame
import proofs.«425779_j14078902796564_1_alg».proof.Proof.Gen.KernelIdeal
import proofs.«425779_j14078902796564_1_alg».proof.Proof.Gen.KernelIdeal.Skeleton
import proofs.«425779_j14078902796564_1_alg».proof.Proof.Gen.KernelIdeal.Launch
import proofs.«425779_j14078902796564_1_alg».proof.Proof.Gen.KernelIdeal.Points
import proofs.«425779_j14078902796564_1_alg».proof.Proof.Gen.KernelIdeal.Frame
import proofs.«425779_j14078902796564_1_alg».proof.Proof.Gen.ReferenceIdeal
import proofs.«425779_j14078902796564_1_alg».proof.Proof.Gen.ReferenceIdeal.Run
import proofs.«425779_j14078902796564_1_alg».proof.Proof.Gen.ReferenceIdeal.Read
import proofs.«425779_j14078902796564_1_alg».proof.Proof.Gen.Pre_finite_inputs
import proofs.«425779_j14078902796564_1_alg».proof.Proof.CatRange
import proofs.«425779_j14078902796564_1_alg».proof.Proof.KernelHyps
import proofs.«425779_j14078902796564_1_alg».proof.Proof.KernelIdealHyps
import proofs.«425779_j14078902796564_1_alg».proof.Proof.KernelValue
import proofs.«425779_j14078902796564_1_alg».proof.Proof.RefValue
import Idealize.ShloMosaic.Adequacy
import Idealize.ShloMosaic.Init

noncomputable section

namespace Cert.Proof

open Idealize.ShloMosaic Idealize.SL.Sem Idealize.ShloMosaic.ValueIdx

/-- The word-level kernel runs, its arguments unchanged: the generated frame, its two hypotheses from the precondition. -/
theorem frame_kernel : Cert.frame_Kernel := fun m ρ h =>
  Cert.Kernel.Gen.frame m ρ (Cert.Kernel.Routing.ok_of_pre m h) (Cert.Kernel.Routing.hyps_of_pre m h _)

/-- The same for the idealized kernel. -/
theorem frame_kernelIdeal : Cert.frame_KernelIdeal := fun m ρ h =>
  Cert.KernelIdeal.Gen.frame m ρ (Cert.KernelIdeal.Routing.ok_of_pre m h) (Cert.KernelIdeal.Routing.hyps_of_pre m h _)

/-- The reference runs: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end at the routed perceptron of the arguments. -/
theorem algebraic : Cert.algebraic_KernelIdeal_ReferenceIdeal := by
  intro m ρ m' ρ' h hagree
  refine ⟨_, Cert.KernelIdeal.Blocks.run m ρ h, ?_⟩
  refine (θ_run Cert.ReferenceIdeal.defs _ _).mono (fun _ hq c => ⟨(hq c).1.trans ?_, (hq c).2⟩)
    (Cert.ReferenceIdeal.Value.run (F := Ideal) m' ρ')
  rw [(hagree c).1, (hagree c).2.1, (hagree c).2.2.1, (hagree c).2.2.2.1, (hagree c).2.2.2.2.1, (hagree c).2.2.2.2.2,
    Cert.ReferenceIdeal.Read.val_main_v36_eq]
  exact Cert.ReferenceIdeal.Routed.result_eq _ _ _ _ _ _ fun b => (Cert.CatRange.cmp_of_pre _ _ _ _ _ _ (h c) b).1

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
